-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S256x128 : S_.BroadcastsInDim S256x128 (![] : Fin 0 → Fin S256x128.rank)
  reducesTo_S256x128_S_d0_1 : S256x128.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_v63 : IVec S_ 1) (main_v65 : IVec S2x640000 1) (main_v67 : IVec S2x640000 1) : IVec S_ 1 :=
  let main_v68 : IVec S2x640000 1 := andi main_v65 main_v67
  let main_c_26 : IVec S_ 1 := constantI S_ 1 1#1
  let main_v69 : IVec S_ 1 := (fun x v => Host.reduce IntOp.andi x v reducesTo_S2x640000_S_d0_1 h_S_) main_v68 main_c_26
  let main_v70 : IVec S_ 1 := andi main_v63 main_v69
  main_v70

def fn_part3 {F : FTy → Type} [FloatOps F] (main_arg2 : IVec S2x640000 32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg2 main_v64
  let main_c_25 : IVec S_ 32 := constantI S_ 32 50000#32
  let main_v66 : IVec S2x640000 32 := broadcastInDim S2x640000 ![] bcast_S_S2x640000 main_c_25
  let main_v67 : IVec S2x640000 1 := cmpi .slt main_arg2 main_v66
  fn_part4 (F := F) main_v63 main_v65 main_v67

def fn_part2 {F : FTy → Type} [FloatOps F] (main_arg2 : IVec S2x640000 32) (main_arg8 : FVec F S128 .f32) (main_arg9 : FVec F S128x1 .f32) (main_arg10 : FVec F S256x128 .f32) (main_arg11 : FVec F S128 .f32) (main_arg12 : FVec F S128x128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_arg13 main_v48 main_v49 main_v50

def fn_part1 {F : FTy → Type} [FloatOps F] (main_arg2 : IVec S2x640000 32) (main_arg5 : FVec F S128x128 .f32) (main_arg6 : FVec F S128 .f32) (main_arg7 : FVec F S128x128 .f32) (main_arg8 : FVec F S128 .f32) (main_arg9 : FVec F S128x1 .f32) (main_arg10 : FVec F S256x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_v33

def fn {F : FTy → Type} [FloatOps F] (main_arg0 : FVec F S50000x128 .f32) (main_arg1 : FVec F S50000x3 .f32) (main_arg2 : IVec S2x640000 32) (main_arg3 : FVec F S257x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S256x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_v13 main_v16
-- ==== Kernel.lean ====
abbrev S50000x128 : Shape := ⟨2, ![50000, 128]⟩
abbrev S50000x3 : Shape := ⟨2, ![50000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S640000x3 : Shape := ⟨2, ![640000, 3]⟩
abbrev S1x128 : Shape := ⟨2, ![1, 128]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S5000x128 : Shape := ⟨2, ![5000, 128]⟩

abbrev nBuf : Space → Nat
  | .hbm => 133
  | .vmem => 30
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S257x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S256x128, .f32⟩
  | 11 => ⟨S128, .f32⟩
  | 12 => ⟨S128x128, .f32⟩
  | 13 => ⟨S128, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S1, .i32⟩
  | 27 => ⟨S_, .i32⟩
  | 28 => ⟨S640000x1, .i32⟩
  | 29 => ⟨S640000x1, .i1⟩
  | 30 => ⟨S1x1, .i32⟩
  | 31 => ⟨S640000x1, .i32⟩
  | 32 => ⟨S640000x1, .i1⟩
  | 33 => ⟨S640000x1, .i1⟩
  | 34 => ⟨S_, .i1⟩
  | 35 => ⟨S640000, .i1⟩
  | 36 => ⟨S640000x128, .f32⟩
  | 37 => ⟨S640000x128, .i1⟩
  | 38 => ⟨S_, .f32⟩
  | 39 => ⟨S640000x128, .f32⟩
  | 40 => ⟨S640000x128, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S1, .i32⟩
  | 50 => ⟨S_, .i32⟩
  | 51 => ⟨S640000x1, .i32⟩
  | 52 => ⟨S640000x1, .i1⟩
  | 53 => ⟨S1x1, .i32⟩
  | 54 => ⟨S640000x1, .i32⟩
  | 55 => ⟨S640000x1, .i1⟩
  | 56 => ⟨S640000x1, .i1⟩
  | 57 => ⟨S_, .i1⟩
  | 58 => ⟨S640000, .i1⟩
  | 59 => ⟨S640000x128, .f32⟩
  | 60 => ⟨S640000x128, .i1⟩
  | 61 => ⟨S_, .f32⟩
  | 62 => ⟨S640000x128, .f32⟩
  | 63 => ⟨S640000x128, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S1, .i32⟩
  | 73 => ⟨S_, .i32⟩
  | 74 => ⟨S640000x1, .i32⟩
  | 75 => ⟨S640000x1, .i1⟩
  | 76 => ⟨S1x1, .i32⟩
  | 77 => ⟨S640000x1, .i32⟩
  | 78 => ⟨S640000x1, .i1⟩
  | 79 => ⟨S640000x1, .i1⟩
  | 80 => ⟨S_, .i1⟩
  | 81 => ⟨S640000, .i1⟩
  | 82 => ⟨S640000x3, .f32⟩
  | 83 => ⟨S640000x3, .i1⟩
  | 84 => ⟨S_, .f32⟩
  | 85 => ⟨S640000x3, .f32⟩
  | 86 => ⟨S640000x3, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S1, .i32⟩
  | 96 => ⟨S_, .i32⟩
  | 97 => ⟨S640000x1, .i32⟩
  | 98 => ⟨S640000x1, .i1⟩
  | 99 => ⟨S1x1, .i32⟩
  | 100 => ⟨S640000x1, .i32⟩
  | 101 => ⟨S640000x1, .i1⟩
  | 102 => ⟨S640000x1, .i1⟩
  | 103 => ⟨S_, .i1⟩
  | 104 => ⟨S640000, .i1⟩
  | 105 => ⟨S640000x3, .f32⟩
  | 106 => ⟨S640000x3, .i1⟩
  | 107 => ⟨S_, .f32⟩
  | 108 => ⟨S640000x3, .f32⟩
  | 109 => ⟨S640000x3, .f32⟩
  | 110 => ⟨S640000x3, .f32⟩
  | 111 => ⟨S128x128, .f32⟩
  | 112 => ⟨S128x128, .f32⟩
  | 113 => ⟨S1x128, .f32⟩
  | 114 => ⟨S1x128, .f32⟩
  | 115 => ⟨S1x128, .f32⟩
  | 116 => ⟨S1x128, .f32⟩
  | 117 => ⟨S640000x128, .f32⟩
  | 118 => ⟨S640000x3, .f32⟩
  | 119 => ⟨S_, .f32⟩
  | 120 => ⟨S50000x3, .f32⟩
  | 121 => ⟨S640000x1, .i32⟩
  | 122 => ⟨S50000x3, .f32⟩
  | 123 => ⟨S_, .f32⟩
  | 124 => ⟨S50000x128, .f32⟩
  | 125 => ⟨S640000x1, .i32⟩
  | 126 => ⟨S50000x128, .f32⟩
  | 127 => ⟨S128x128, .f32⟩
  | _ => ⟨S50000x128, .f32⟩

abbrev hbmTy0_1 (i : Nat) : BufTy := match i % 128 with
  | 0 => ⟨S128x128, .f32⟩
  | 1 => ⟨S1x128, .f32⟩
  | 2 => ⟨S1x128, .f32⟩
  | 3 => ⟨S50000x128, .f32⟩
  | 4 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S4000x128, .f32⟩
  | .local _ .vmem, ⟨16, _⟩ => ⟨S4000x128, .f32⟩
  | .local _ .vmem, ⟨17, _⟩ => ⟨S4000x3, .f32⟩
  | .local _ .vmem, ⟨18, _⟩ => ⟨S4000x3, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v6 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_v10 : Ref sig .tc := ⟨.hbm, 112, rfl⟩
abbrev main_v11 : Ref sig .tc := ⟨.hbm, 113, rfl⟩
abbrev main_v12 : Ref sig .tc := ⟨.hbm, 114, rfl⟩
abbrev main_v13 : Ref sig .tc := ⟨.hbm, 115, rfl⟩
abbrev main_v14 : Ref sig .tc := ⟨.hbm, 116, rfl⟩
abbrev main_v15_0 : Ref sig .tc := ⟨.hbm, 117, rfl⟩
abbrev main_v15_1 : Ref sig .tc := ⟨.hbm, 118, rfl⟩
abbrev main_cst : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_cst_0 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4000x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000_S640000x3_0 : S640000.BroadcastsInDim S640000x3 (![0] : Fin 1 → Fin S640000x3.rank)
  bcast_S_S640000x3 : S_.BroadcastsInDim S640000x3 (![] : Fin 0 → Fin S640000x3.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  broadcasts_S4000x1_S4000x3 : S4000x1.Broadcasts S4000x3
  bcast_S_S50000x3 : S_.BroadcastsInDim S50000x3 (![] : Fin 0 → Fin S50000x3.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  gather_S50000x3_S640000x1_S640000x3_1_0_n_n_0_1_13_wf : GatherDims.WF S50000x3 S640000x1 S640000x3 [1] [0] [] [0] [] 1 ![1, 3]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x3_S640000x1_S640000x3_1_0_0_1_wf : ScatterDims.WF S50000x3 S640000x1 S640000x3 [1] [0] [0] 1
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S640000x128.size a
  hwx0_1 : ∀ i : grid0.Coords, EltTy.bits .f32 = 32 ∨ (Rect.block (s := S640000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S640000x3.size a
  hwx0_2 : ∀ i : grid0.Coords, EltTy.bits .f32 = 32 ∨ (Rect.block (s := S640000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x128.size a ≤ S640000x128.size a
  hwx0_12 : ∀ i : grid0.Coords, EltTy.bits .f32 = 32 ∨ (Rect.block (s := S640000x128) S4000x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x3.size a ≤ S640000x3.size a
  hwx0_13 : ∀ i : grid0.Coords, EltTy.bits .f32 = 32 ∨ (Rect.block (s := S640000x3) S4000x3.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15_0) S4000x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v15_1) S4000x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x640000 : Shape := ⟨2, ![2, 640000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x3 : Shape := ⟨2, ![640000, 3]⟩
abbrev S640000x128 : Shape := ⟨2, ![640000, 128]⟩
abbrev S640000x257 : Shape := ⟨2, ![640000, 257]⟩
abbrev S1x128 : Shape := ⟨2, ![1, 128]⟩
abbrev S50000x256 : Shape := ⟨2, ![50000, 256]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S50000x3, .f32⟩
  | 2 => ⟨S2x640000, .i32⟩
  | 3 => ⟨S257x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S256x128, .f32⟩
  | 11 => ⟨S128, .f32⟩
  | 12 => ⟨S128x128, .f32⟩
  | 13 => ⟨S128, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x3, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x3, .f32⟩
  | 36 => ⟨S640000x3, .f32⟩
  | 37 => ⟨S640000x3, .f32⟩
  | 38 => ⟨S_, .f32⟩
  | 39 => ⟨S640000, .f32⟩
  | 40 => ⟨S640000x1, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x128, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S640000x257, .f32⟩
  | 60 => ⟨S640000x128, .f32⟩
  | 61 => ⟨S1x128, .f32⟩
  | 62 => ⟨S640000x128, .f32⟩
  | 63 => ⟨S640000x128, .f32⟩
  | 64 => ⟨S640000x128, .f32⟩
  | 65 => ⟨S640000x128, .f32⟩
  | 66 => ⟨S_, .f32⟩
  | 67 => ⟨S640000x128, .f32⟩
  | 68 => ⟨S640000x128, .f32⟩
  | 69 => ⟨S_, .f32⟩
  | 70 => ⟨S640000x128, .f32⟩
  | 71 => ⟨S640000x128, .f32⟩
  | 72 => ⟨S640000x128, .f32⟩
  | 73 => ⟨S640000x128, .f32⟩
  | 74 => ⟨S1x128, .f32⟩
  | 75 => ⟨S640000x128, .f32⟩
  | 76 => ⟨S640000x128, .f32⟩
  | 77 => ⟨S640000x128, .f32⟩
  | 78 => ⟨S640000x128, .f32⟩
  | 79 => ⟨S_, .f32⟩
  | 80 => ⟨S640000x128, .f32⟩
  | 81 => ⟨S640000x128, .f32⟩
  | 82 => ⟨S_, .f32⟩
  | 83 => ⟨S640000x128, .f32⟩
  | 84 => ⟨S640000x128, .f32⟩
  | 85 => ⟨S640000x128, .f32⟩
  | 86 => ⟨S640000x128, .f32⟩
  | 87 => ⟨S1x128, .f32⟩
  | 88 => ⟨S640000x128, .f32⟩
  | 89 => ⟨S640000x128, .f32⟩
  | 90 => ⟨S640000x128, .f32⟩
  | 91 => ⟨S640000x128, .f32⟩
  | 92 => ⟨S_, .f32⟩
  | 93 => ⟨S640000x128, .f32⟩
  | 94 => ⟨S640000x128, .f32⟩
  | 95 => ⟨S_, .f32⟩
  | 96 => ⟨S640000x128, .f32⟩
  | 97 => ⟨S640000x128, .f32⟩
  | 98 => ⟨S640000x128, .f32⟩
  | 99 => ⟨S640000x1, .f32⟩
  | 100 => ⟨S640000x3, .f32⟩
  | 101 => ⟨S640000x3, .f32⟩
  | 102 => ⟨S_, .f32⟩
  | 103 => ⟨S50000x3, .f32⟩
  | 104 => ⟨S640000x1, .i32⟩
  | 105 => ⟨S50000x3, .f32⟩
  | 106 => ⟨S50000x3, .f32⟩
  | 107 => ⟨S_, .f32⟩
  | 108 => ⟨S50000x128, .f32⟩
  | 109 => ⟨S640000x1, .i32⟩
  | 110 => ⟨S50000x128, .f32⟩
  | 111 => ⟨S50000x256, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_7 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_8 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  reducesTo_S640000x3_S640000_d1 : S640000x3.ReducesTo [1] S640000
  h_S_ : 0 < S_.numel
  concatenates_S640000x128_S640000x128_S640000x1_S640000x257_d1 : Shape.Concatenates [S640000x128, S640000x128, S640000x1] S640000x257 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S640000x1_S640000x3_0_1 : S640000x1.BroadcastsInDim S640000x3 (![0, 1] : Fin 2 → Fin S640000x3.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S640000x1_S640000x3_1_0_n_n_0_1_13_wf : GatherDims.WF S50000x3 S640000x1 S640000x3 [1] [0] [] [0] [] 1 ![1, 3]
  gather_S50000x128_S640000x1_S640000x128_1_0_n_n_0_1_1128_wf : GatherDims.WF S50000x128 S640000x1 S640000x128 [1] [0] [] [0] [] 1 ![1, 128]
  dot_S640000x257_S257x128_S640000x128_1_0_0_1_n_n_wf : DotDims.WF S640000x257 S257x128 S640000x128 [1] [0] [0] [1] [] []
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []
  scatter_S50000x3_S640000x1_S640000x3_1_0_0_1_wf : ScatterDims.WF S50000x3 S640000x1 S640000x3 [1] [0] [0] 1
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S640000x1_S640000x3_1_0_n_n_0_1_13 : GatherDims S50000x3 S640000x1 S640000x3 where
  offsetDims := [1]
  collapsedSliceDims := [0]
  operandBatchingDims := []
  startIndicesBatchingDims := []
  startIndexMap := [0]
  indexVectorDim := 1
  sliceSizes := ![1, 3]
  wf := gather_S50000x3_S640000x1_S640000x3_1_0_n_n_0_1_13_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x257_S257x128_S640000x128_1_0_0_1_n_n : DotDims S640000x257 S257x128 S640000x128 where
  lhsContracting := [1]
  rhsContracting := [0]
  lhsNonContracting := [0]
  rhsNonContracting := [1]
  lhsBatch := []
  rhsBatch := []
  wf := dot_S640000x257_S257x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def scatter_S50000x3_S640000x1_S640000x3_1_0_0_1 : ScatterDims S50000x3 S640000x1 S640000x3 where
  updateWindowDims := [1]
  insertedWindowDims := [0]
  scatterDimsToOperandDims := [0]
  indexVectorDim := 1
  wf := scatter_S50000x3_S640000x1_S640000x3_1_0_0_1_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer both programs compute, stated once over the extended reals, one row at a time.

  An edge e with endpoint features a = h[src e], b = h[dst e] (128 numbers each) and relative position
  r = x[src e] - x[dst e] (3 numbers) produces
    * its message: two dense layers with the gate z ↦ z · σ(z) (σ the logistic function); the first layer's input is
      the 257 numbers (a, b, |r|²), and its weight matrix is used here already cut into its three row bands
      (rows 0..127 act on a, rows 128..255 on b, row 256 on |r|²), so the first pre-activation is
      (a·Ws + b·Wd) + (|r|²·wq + bias);
    * its coordinate update r · c, where the scalar c is a third gated layer of the message followed by a product with
      one weight column.
  A node with features hrow and summed incoming messages g produces hrow + (gate(hrow·Wh + g·Wm + b1)·W2 + b2), its
  first weight matrix likewise cut into the band acting on hrow and the band acting on g.

  Everything is a finite sum of products in the extended reals; no cancellation, distributivity or finiteness is used
  anywhere: only that addition there is associative and commutative.
-/
import Idealize.ShloMosaic.PureOps.Ideal
import Idealize.ShloMosaic.Lib.ValueIdx

noncomputable section

open scoped BigOperators

namespace Cert.Egnn

open Idealize.ShloMosaic Idealize.ShloMosaic.ValueIdx

/-- An a × b array of extended reals, indexed as the programs index theirs. -/
abbrev Mat (a b : Nat) : Type := (⟨2, ![a, b]⟩ : Shape).Idx → EReal

/-- The gate z · σ(z). -/
def gate (z : EReal) : EReal := z * Ideal.logistic z

/-- Row e of an array, as a function of the column. -/
def row {R C : Nat} (x : Mat R C) (e : Fin R) : Fin C → EReal := fun k => x (ix2 e k)

/-- The first edge layer before its gate, at output column j. -/
def edgePre (a b : Fin 128 → EReal) (r : Fin 3 → EReal) (Ws Wd : Mat 128 128) (wq bq : Mat 1 128) (j : Fin 128) : EReal :=
  ((∑ k : Fin 128, a k * Ws (ix2 k j)) + (∑ k : Fin 128, b k * Wd (ix2 k j)))
    + ((∑ c : Fin 3, r c * r c) * wq (ix2 0 j) + bq (ix2 0 j))

/-- An edge's message, at output column j. -/
def edgeMsg (a b : Fin 128 → EReal) (r : Fin 3 → EReal) (Ws Wd : Mat 128 128) (wq bq : Mat 1 128)
    (W2 : Mat 128 128) (b2 : Mat 1 128) (j : Fin 128) : EReal :=
  gate ((∑ k : Fin 128, gate (edgePre a b r Ws Wd wq bq k) * W2 (ix2 k j)) + b2 (ix2 0 j))

/-- The scalar an edge's relative position is multiplied by. -/
def edgeCoef (a b : Fin 128 → EReal) (r : Fin 3 → EReal) (Ws Wd : Mat 128 128) (wq bq : Mat 1 128)
    (W2 : Mat 128 128) (b2 : Mat 1 128) (Wc1 : Mat 128 128) (bc1 : Mat 1 128) (Wc2 : Mat 128 1) : EReal :=
  ∑ k : Fin 128, gate ((∑ l : Fin 128, edgeMsg a b r Ws Wd wq bq W2 b2 l * Wc1 (ix2 l k)) + bc1 (ix2 0 k)) * Wc2 (ix2 k 0)

/-- A node's new features, at column j. -/
def nodeRow (hrow g : Fin 128 → EReal) (Wh Wm : Mat 128 128) (b1 : Mat 1 128) (W2 : Mat 128 128) (b2 : Mat 1 128)
    (j : Fin 128) : EReal :=
  hrow j + ((∑ k : Fin 128,
      gate (((∑ l : Fin 128, hrow l * Wh (ix2 l k)) + (∑ l : Fin 128, g l * Wm (ix2 l k))) + b1 (ix2 0 k)) * W2 (ix2 k j))
    + b2 (ix2 0 j))

/-- All R edges' messages as one array. -/
def edgeM {R : Nat} (hs hd : Mat R 128) (rel : Mat R 3) (Ws Wd : Mat 128 128) (wq bq : Mat 1 128)
    (W2 : Mat 128 128) (b2 : Mat 1 128) : Mat R 128 :=
  fun i => edgeMsg (row hs (i 0)) (row hd (i 0)) (row rel (i 0)) Ws Wd wq bq W2 b2 (i 1)

/-- All R edges' coordinate updates as one array. -/
def edgeC {R : Nat} (hs hd : Mat R 128) (rel : Mat R 3) (Ws Wd : Mat 128 128) (wq bq : Mat 1 128)
    (W2 : Mat 128 128) (b2 : Mat 1 128) (Wc1 : Mat 128 128) (bc1 : Mat 1 128) (Wc2 : Mat 128 1) : Mat R 3 :=
  fun i => rel i * edgeCoef (row hs (i 0)) (row hd (i 0)) (row rel (i 0)) Ws Wd wq bq W2 b2 Wc1 bc1 Wc2

/-- All R nodes' new features as one array. -/
def nodeH {R : Nat} (h g : Mat R 128) (Wh Wm : Mat 128 128) (b1 : Mat 1 128) (W2 : Mat 128 128) (b2 : Mat 1 128) : Mat R 128 :=
  fun i => nodeRow (row h (i 0)) (row g (i 0)) Wh Wm b1 W2 b2 (i 1)

end Cert.Egnn

end
-- ==== Proof.PayEdge.lean ====
/-
  The edge kernel's two stored values, as functions of the blocks it loads, are the edge layer of the specification
  applied to those blocks (4000 edges at a time): at the ideal instance a matrix product into a zero accumulator is
  the plain sum over the contracted axis, a lane reduction is the sum over the lane, a change of float format is the
  identity, and the broadcasts repeat a row or a column.
-/
import proofs.«418114_j661424963982_2_alg».proof.Proof.Gen.KernelIdeal.Skeleton
import proofs.«418114_j661424963982_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx

/-! ## The operations that are not pointwise, read at a row and a column -/

/-- The sum over the lane of a 4000 × 3 block, at row `p`: the sum of that row's three entries. -/
private theorem laneSum_apply (v : FVec Ideal S4000x3 .f32) (hφ : FTy.f32 = FTy.f32 ∨ FTy.f32 = FTy.bf16)
    (hacc : (0x00000000#32 : BitVec 32) = 0x00000000#32) (p : Fin 4000) :
    multiReduction .add [1] S4000 v 0x00000000#32 reduces_S4000x3_S4000 hφ hacc (ix1 p)
      = ∑ c : Fin 3, v (ix2 p c) := by
  refine (Ideal.multiReduction_add_single v 0x00000000#32 reduces_S4000x3_S4000 hφ hacc (ix1 p)).trans ?_
  refine Finset.sum_congr rfl fun c _ => congrArg v ?_
  funext a
  match a with
  | ⟨0, _⟩ => rfl
  | ⟨1, _⟩ => rfl

/-- A length-4000 vector viewed as a 4000 × 1 column reads its entry `p` at row `p`. -/
private theorem column_apply (v : FVec Ideal S4000 .f32) (p : Fin 4000) (u : Fin 1) :
    shapeCast S4000x1 v shapeCasts_S4000_S4000x1 (ix2 p u) = v (ix1 p) :=
  shapeCast_apply v shapeCasts_S4000_S4000x1 _ _ (by
    have hu : u.val = 0 := by omega
    rw [Shape.rowMajor_val_two, Shape.rowMajor_val_one]
    show p.val = p.val * 1 + u.val
    rw [hu, Nat.mul_one, Nat.add_zero])

/-- A 4000 × 1 column repeated along 128 lanes reads, at `(p, q)`, the column's entry `p`. -/
private theorem columnTo128_apply (v : FVec Ideal S4000x1 .f32) (p : Fin 4000) (q : Fin 128) :
    broadcastTo S4000x128 v broadcasts_S4000x1_S4000x128 (ix2 p q) = v (ix2 p (0 : Fin 1)) := by
  refine broadcastTo_apply v broadcasts_S4000x1_S4000x128 (ix2 p q) (ix2 p (0 : Fin 1)) fun ax => ?_
  match ax with
  | ⟨0, _⟩ =>
    show p.val = if (4000 : Nat) = 1 then 0 else p.val
    rw [if_neg (by decide)]
  | ⟨1, _⟩ => rfl

/-- A 4000 × 1 column repeated along 3 lanes reads, at `(p, c)`, the column's entry `p`. -/
private theorem columnTo3_apply (v : FVec Ideal S4000x1 .f32) (p : Fin 4000) (c : Fin 3) :
    broadcastTo S4000x3 v broadcasts_S4000x1_S4000x3 (ix2 p c) = v (ix2 p (0 : Fin 1)) := by
  refine broadcastTo_apply v broadcasts_S4000x1_S4000x3 (ix2 p c) (ix2 p (0 : Fin 1)) fun ax => ?_
  match ax with
  | ⟨0, _⟩ =>
    show p.val = if (4000 : Nat) = 1 then 0 else p.val
    rw [if_neg (by decide)]
  | ⟨1, _⟩ => rfl

/-- A 1 × 128 row repeated along 4000 rows reads, at `(p, q)`, the row's entry `q`. -/
private theorem rowTo4000_apply (v : FVec Ideal S1x128 .f32) (p : Fin 4000) (q : Fin 128) :
    broadcastTo S4000x128 v broadcasts_S1x128_S4000x128 (ix2 p q) = v (ix2 (0 : Fin 1) q) :=
  broadcastTo_1b_ab_apply v broadcasts_S1x128_S4000x128 p q

/-! ## The two matrix products into a zero accumulator, read at a row and a column -/

private theorem prod128_lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem prod128_lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem prod128_rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem prod128_rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 block times a 128 × 128 matrix, into zero, at `(p, q)`: the sum over `k` of the products of row `p` and column `q`. -/
private theorem prod128_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  refine (Ideal.matmul_constant_zero_apply dot_S4000x128_S128x128_S4000x128_1_0_0_1_n_n none A B (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact prod128_lhs_0 _ _
    | ⟨1, _⟩ => exact (prod128_lhs_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (prod128_rhs_0 _ _).trans hk
    | ⟨1, _⟩ => exact prod128_rhs_1 _ _)
  rw [el, er]

private theorem prod1_lhs_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
private theorem prod1_lhs_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
private theorem prod1_rhs_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
private theorem prod1_rhs_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- A 4000 × 128 block times a 128 × 1 column, into zero, at `(p, q)`: the sum over `k` of the products of row `p` and the column. -/
private theorem prod1_apply (A : FVec Ideal S4000x128 .bf16) (B : FVec Ideal S128x1 .bf16) (p : Fin 4000) (q : Fin 1) :
    matmul dot_S4000x128_S128x1_S4000x1_1_0_0_1_n_n none A B (constant (F := Ideal) S4000x1 .f32 0x00000000#32) (ix2 p q)
      = ∑ k : Fin 128, A (ix2 p k) * B (ix2 k q) := by
  refine (Ideal.matmul_constant_zero_apply dot_S4000x128_S128x1_S4000x1_1_0_0_1_n_n none A B (ix2 p q)).trans ?_
  rw [← Equiv.sum_comp (contrEquiv1 dot_S4000x128_S128x1_S4000x1_1_0_0_1_n_n 128 rfl rfl).symm]
  refine Finset.sum_congr rfl fun k _ => ?_
  have hk := contrEquiv1_symm_val dot_S4000x128_S128x1_S4000x1_1_0_0_1_n_n 128 rfl rfl k
  have el : dot_S4000x128_S128x1_S4000x1_1_0_0_1_n_n.lhsIdx (ix2 p q) ((contrEquiv1 dot_S4000x128_S128x1_S4000x1_1_0_0_1_n_n 128 rfl rfl).symm k) = ix2 p k := funext fun a => Fin.ext (by
    match a with
    | ⟨0, _⟩ => exact prod1_lhs_0 _ _
    | ⟨1, _⟩ => exact (prod1_lhs_1 _ _).trans hk)
  have er : dot_S4000x128_S128x1_S4000x1_1_0_0_1_n_n.rhsIdx (ix2 p q) ((contrEquiv1 dot_S4000x128_S128x1_S4000x1_1_0_0_1_n_n 128 rfl rfl).symm k) = ix2 k q := funext fun a => Fin.ext (by
    match a with
    | ⟨0, _⟩ => exact (prod1_rhs_0 _ _).trans hk
    | ⟨1, _⟩ => exact prod1_rhs_1 _ _)
  rw [el, er]

/-! ## The layers, one entry at a time -/

/-- The logistic function applied lane by lane reads, at an index, the logistic function of the entry. -/
private theorem logistic_apply {s : Shape} {φ : FTy} (x : FVec Ideal s φ) (i : s.Idx) : logistic x i = Ideal.logistic (x i) := rfl

/-- The second matrix product of the message layer at `(p, q)`: the gated first layer of edge `p` against column `q` of
    the second weight matrix. -/
private theorem hidden_apply (x0 x1 : Vec Ideal S4000x128 .f32) (x2 : Vec Ideal S4000x3 .f32) (x3 x4 : Vec Ideal S128x128 .f32)
    (x5 x6 : Vec Ideal S1x128 .f32) (x7 : Vec Ideal S128x128 .f32) (p : Fin 4000) (q : Fin 128) :
    k0_pay4 (F := Ideal) x0 x1 x2 x3 x4 x5 x6 x7 (ix2 p q)
      = ∑ k : Fin 128, Cert.Egnn.gate (Cert.Egnn.edgePre (Cert.Egnn.row x0 p) (Cert.Egnn.row x1 p) (Cert.Egnn.row x2 p) x3 x4 x5 x6 k)
          * x7 (ix2 k q) := by
  simp only [k0_pay4, k0_pay3, shapeCast_self, prod128_apply, mulf_apply, addf_apply, truncf_apply, logistic_apply,
    columnTo128_apply, column_apply, rowTo4000_apply]
  rw [laneSum_apply]
  rfl

/-- The stored message at `(p, q)`: the message of edge `p` at column `q`. -/
private theorem msg_apply (x0 x1 : Vec Ideal S4000x128 .f32) (x2 : Vec Ideal S4000x3 .f32) (x3 x4 : Vec Ideal S128x128 .f32)
    (x5 x6 : Vec Ideal S1x128 .f32) (x7 : Vec Ideal S128x128 .f32) (x8 : Vec Ideal S1x128 .f32) (p : Fin 4000) (q : Fin 128) :
    k0_pay1 (F := Ideal) (k0_pay4 (F := Ideal) x0 x1 x2 x3 x4 x5 x6 x7) x8 (ix2 p q)
      = Cert.Egnn.edgeMsg (Cert.Egnn.row x0 p) (Cert.Egnn.row x1 p) (Cert.Egnn.row x2 p) x3 x4 x5 x6 x7 x8 q := by
  simp only [k0_pay1, shapeCast_self, mulf_apply, addf_apply, logistic_apply, rowTo4000_apply, hidden_apply]
  rfl

/-- The stored message block is the specification's message array of the loaded blocks. -/
theorem pay_msg (x0 x1 : Vec Ideal S4000x128 .f32) (x2 : Vec Ideal S4000x3 .f32) (x3 x4 : Vec Ideal S128x128 .f32)
    (x5 x6 : Vec Ideal S1x128 .f32) (x7 : Vec Ideal S128x128 .f32) (x8 : Vec Ideal S1x128 .f32) :
    k0_pay1 (F := Ideal) (k0_pay4 (F := Ideal) x0 x1 x2 x3 x4 x5 x6 x7) x8
      = Cert.Egnn.edgeM (R := 4000) x0 x1 x2 x3 x4 x5 x6 x7 x8 := by
  funext i
  obtain ⟨p, q, rfl⟩ : ∃ (p : Fin 4000) (q : Fin 128), i = ix2 p q := ⟨i 0, i 1, eq_ix2 i⟩
  exact msg_apply x0 x1 x2 x3 x4 x5 x6 x7 x8 p q

/-- The stored coordinate-update block is the specification's coordinate-update array of the loaded blocks. -/
theorem pay_coord (x0 x1 : Vec Ideal S4000x128 .f32) (x2 : Vec Ideal S4000x3 .f32) (x3 x4 : Vec Ideal S128x128 .f32)
    (x5 x6 : Vec Ideal S1x128 .f32) (x7 : Vec Ideal S128x128 .f32) (x8 : Vec Ideal S1x128 .f32)
    (x9 : Vec Ideal S128x128 .f32) (x10 : Vec Ideal S1x128 .f32) (x11 : Vec Ideal S128x1 .f32) :
    k0_pay2 (F := Ideal) (k0_pay3 (F := Ideal) x2) (k0_pay4 (F := Ideal) x0 x1 x2 x3 x4 x5 x6 x7) x8 x9 x10 x11
      = Cert.Egnn.edgeC (R := 4000) x0 x1 x2 x3 x4 x5 x6 x7 x8 x9 x10 x11 := by
  funext i
  obtain ⟨p, c, rfl⟩ : ∃ (p : Fin 4000) (c : Fin 3), i = ix2 p c := ⟨i 0, i 1, eq_ix2 i⟩
  simp only [k0_pay2, k0_pay3, shapeCast_self, mulf_apply, addf_apply, truncf_apply, logistic_apply, columnTo3_apply,
    prod1_apply, prod128_apply, rowTo4000_apply, msg_apply]
  rfl

end Cert.KernelIdeal.Val

end
-- ==== Proof.Blocks0.lean ====
/-
  The edge launch: 160 grid points, point t working on edges 4000·t .. 4000·t + 3999. Each point's two output blocks
  are the specification's arrays restricted to those rows (a row of a block is the row 4000·t + p of the array; the
  weight windows are whole arrays at every point), the 160 blocks tile the 640000 rows, so after the launch the two
  output arrays are the specification's arrays of the arrays the launch found.
-/
import proofs.«418114_j661424963982_2_alg».proof.Proof.Gen.KernelIdeal.Frame
import proofs.«418114_j661424963982_2_alg».proof.Proof.PayEdge
import proofs.«418114_j661424963982_2_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

namespace EdgeLaunch

/-! ## The specification's arrays, read row by row -/

/-- An edge's message is a function of the edge's three rows: two triples of row arrays that agree on the rows of
    edges e and e' give those two edges the same message, column by column. -/
theorem edgeM_of_rows {R R' : Nat} (hs hd : Cert.Egnn.Mat R 128) (rel : Cert.Egnn.Mat R 3)
    (hs' hd' : Cert.Egnn.Mat R' 128) (rel' : Cert.Egnn.Mat R' 3)
    (Ws Wd : Cert.Egnn.Mat 128 128) (wq bq : Cert.Egnn.Mat 1 128) (W2 : Cert.Egnn.Mat 128 128) (b2 : Cert.Egnn.Mat 1 128)
    (e : Fin R) (e' : Fin R') (j : Fin 128)
    (h0 : ∀ k : Fin 128, hs (ix2 e k) = hs' (ix2 e' k)) (h1 : ∀ k : Fin 128, hd (ix2 e k) = hd' (ix2 e' k))
    (h2 : ∀ k : Fin 3, rel (ix2 e k) = rel' (ix2 e' k)) :
    Cert.Egnn.edgeM hs hd rel Ws Wd wq bq W2 b2 (ix2 e j) = Cert.Egnn.edgeM hs' hd' rel' Ws Wd wq bq W2 b2 (ix2 e' j) := by
  have r0 : Cert.Egnn.row hs e = Cert.Egnn.row hs' e' := funext h0
  have r1 : Cert.Egnn.row hd e = Cert.Egnn.row hd' e' := funext h1
  have r2 : Cert.Egnn.row rel e = Cert.Egnn.row rel' e' := funext h2
  show Cert.Egnn.edgeMsg (Cert.Egnn.row hs e) (Cert.Egnn.row hd e) (Cert.Egnn.row rel e) Ws Wd wq bq W2 b2 j
    = Cert.Egnn.edgeMsg (Cert.Egnn.row hs' e') (Cert.Egnn.row hd' e') (Cert.Egnn.row rel' e') Ws Wd wq bq W2 b2 j
  rw [r0, r1, r2]

/-- Likewise an edge's coordinate update: an entry of its relative position times a scalar of its three rows. -/
theorem edgeC_of_rows {R R' : Nat} (hs hd : Cert.Egnn.Mat R 128) (rel : Cert.Egnn.Mat R 3)
    (hs' hd' : Cert.Egnn.Mat R' 128) (rel' : Cert.Egnn.Mat R' 3)
    (Ws Wd : Cert.Egnn.Mat 128 128) (wq bq : Cert.Egnn.Mat 1 128) (W2 : Cert.Egnn.Mat 128 128) (b2 : Cert.Egnn.Mat 1 128)
    (Wc1 : Cert.Egnn.Mat 128 128) (bc1 : Cert.Egnn.Mat 1 128) (Wc2 : Cert.Egnn.Mat 128 1)
    (e : Fin R) (e' : Fin R') (j : Fin 3)
    (h0 : ∀ k : Fin 128, hs (ix2 e k) = hs' (ix2 e' k)) (h1 : ∀ k : Fin 128, hd (ix2 e k) = hd' (ix2 e' k))
    (h2 : ∀ k : Fin 3, rel (ix2 e k) = rel' (ix2 e' k)) :
    Cert.Egnn.edgeC hs hd rel Ws Wd wq bq W2 b2 Wc1 bc1 Wc2 (ix2 e j)
      = Cert.Egnn.edgeC hs' hd' rel' Ws Wd wq bq W2 b2 Wc1 bc1 Wc2 (ix2 e' j) := by
  have r0 : Cert.Egnn.row hs e = Cert.Egnn.row hs' e' := funext h0
  have r1 : Cert.Egnn.row hd e = Cert.Egnn.row hd' e' := funext h1
  have r2 : Cert.Egnn.row rel e = Cert.Egnn.row rel' e' := funext h2
  show rel (ix2 e j) * Cert.Egnn.edgeCoef (Cert.Egnn.row hs e) (Cert.Egnn.row hd e) (Cert.Egnn.row rel e) Ws Wd wq bq W2 b2 Wc1 bc1 Wc2
    = rel' (ix2 e' j) * Cert.Egnn.edgeCoef (Cert.Egnn.row hs' e') (Cert.Egnn.row hd' e') (Cert.Egnn.row rel' e') Ws Wd wq bq W2 b2 Wc1 bc1 Wc2
  rw [r0, r1, r2, h2 j]

/-! ## Where each block sits in its array -/

/-- Both coordinates of a block read through the whole-block rectangle start at zero. -/
theorem zero_offsets : (![0, 0] : Fin 2 → Nat) = fun _ => 0 :=
  funext fun a => match a with | ⟨0, _⟩ => rfl | ⟨1, _⟩ => rfl

/-- At point t the three row windows and the two output windows sit at block (t, 0). -/
theorem row_block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- At every point the nine weight windows sit at block (0, 0). -/
theorem weight_block_index : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## The three row windows: a block's row p is the array's row 4000·t + p -/

/-- Point t's block of the source endpoints' features, and the array of all 640000 edges' it is cut from. -/
abbrev srcRows (c : Dev nD) (t : Fin cfg0.N) : Vec Ideal S4000x128 .f32 := iblk0 (F := Ideal) V c 0 t
abbrev srcAll (c : Dev nD) : Vec Ideal S640000x128 .f32 := V c main_v4

theorem srcRows_apply (c : Dev nD) (t : Fin cfg0.N) (x : S4000x128.Idx) (k : S640000x128.Idx)
    (hk0 : (k 0).val = 4000 * t.val + (x 0).val) (hk1 : (k 1).val = (x 1).val) :
    srcRows V c t x = srcAll V c k := by
  obtain ⟨⟨e0, e1⟩, -⟩ := row_block_index t
  show V c main_v4 (((cfg0.win 0).blk t).view.emb x) = V c main_v4 k
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The same for the destination endpoints' features. -/
abbrev dstRows (c : Dev nD) (t : Fin cfg0.N) : Vec Ideal S4000x128 .f32 := iblk0 (F := Ideal) V c 1 t
abbrev dstAll (c : Dev nD) : Vec Ideal S640000x128 .f32 := V c main_v5

theorem dstRows_apply (c : Dev nD) (t : Fin cfg0.N) (x : S4000x128.Idx) (k : S640000x128.Idx)
    (hk0 : (k 0).val = 4000 * t.val + (x 0).val) (hk1 : (k 1).val = (x 1).val) :
    dstRows V c t x = dstAll V c k := by
  obtain ⟨-, ⟨e0, e1⟩, -⟩ := row_block_index t
  show V c main_v5 (((cfg0.win 1).blk t).view.emb x) = V c main_v5 k
  congr 1
  funext a
  apply Fin.ext
  match a with
  | ⟨0, _⟩ => show win0_1.index t (0 : Fin 2) * 4000 + 1 * (x 0).val = (k 0).val; rw [e0, hk0]; omega
  | ⟨1, _⟩ => show win0_1.index t (1 : Fin 2) * 128 + 1 * (x 1).val = (k 1).val; rw [e1, hk1]; omega

/-- The same for the relative positions, three numbers a row. -/
abbrev relRows (c : Dev nD) (t : Fin cfg0.N) : Vec Ideal S4000x3 .f32 := iblk0 (F := Ideal) V c 2 t
abbrev relAll (c : Dev nD) : Vec Ideal S640000x3 .f32 := V c main_v8

theorem relRows_apply (c : Dev nD) (t : Fin cfg0.N) (x : S4000x3.Idx) (k : S640000x3.Idx)
    (hk0 : (k 0).val = 4000 * t.val + (x 0).val) (hk1 : (k 1).val = (x 1).val) :
    relRows V c t x = relAll V c k := by
  obtain ⟨-, -, ⟨e0, e1⟩, -⟩ := row_block_index t
  show V c main_v8 (((cfg0.win 2).blk t).view.emb x) = V c main_v8 k
  congr 1
  funext a
  apply Fin.ext
  match a with
  | ⟨0, _⟩ => show win0_2.index t (0 : Fin 2) * 4000 + 1 * (x 0).val = (k 0).val; rw [e0, hk0]; omega
  | ⟨1, _⟩ => show win0_2.index t (1 : Fin 2) * 3 + 1 * (x 1).val = (k 1).val; rw [e1, hk1]; omega

/-! ## The nine weight windows: the block at every point is the whole array -/

/-- The first layer's band that acts on the source features. -/
abbrev wSrcAt (c : Dev nD) (t : Fin cfg0.N) : Vec Ideal S128x128 .f32 := iblk0 (F := Ideal) V c 3 t
abbrev wSrc (c : Dev nD) : Vec Ideal S128x128 .f32 := V c main_v9

theorem wSrcAt_eq (c : Dev nD) (t : Fin cfg0.N) : wSrcAt V c t = wSrc V c := by
  obtain ⟨⟨e0, e1⟩, -⟩ := weight_block_index t
  funext y
  show V c main_v9 (((cfg0.win 3).blk t).view.emb y) = V c main_v9 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The first layer's band that acts on the destination features. -/
abbrev wDstAt (c : Dev nD) (t : Fin cfg0.N) : Vec Ideal S128x128 .f32 := iblk0 (F := Ideal) V c 4 t
abbrev wDst (c : Dev nD) : Vec Ideal S128x128 .f32 := V c main_v10

theorem wDstAt_eq (c : Dev nD) (t : Fin cfg0.N) : wDstAt V c t = wDst V c := by
  obtain ⟨-, ⟨e0, e1⟩, -⟩ := weight_block_index t
  funext y
  show V c main_v10 (((cfg0.win 4).blk t).view.emb y) = V c main_v10 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The first layer's row that acts on the squared distance. -/
abbrev wSqAt (c : Dev nD) (t : Fin cfg0.N) : Vec Ideal S1x128 .f32 := iblk0 (F := Ideal) V c 5 t
abbrev wSq (c : Dev nD) : Vec Ideal S1x128 .f32 := V c main_v11

theorem wSqAt_eq (c : Dev nD) (t : Fin cfg0.N) : wSqAt V c t = wSq V c := by
  obtain ⟨-, -, ⟨e0, e1⟩, -⟩ := weight_block_index t
  funext y
  show V c main_v11 (((cfg0.win 5).blk t).view.emb y) = V c main_v11 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- The first layer's bias. -/
abbrev bias1At (c : Dev nD) (t : Fin cfg0.N) : Vec Ideal S1x128 .f32 := iblk0 (F := Ideal) V c 6 t
abbrev bias1 (c : Dev nD) : Vec Ideal S1x128 .f32 := V c main_v12

theorem bias1At_eq (c : Dev nD) (t : Fin cfg0.N) : bias1At V c t = bias1 V c := by
  obtain ⟨-, -, -, ⟨e0, e1⟩, -⟩ := weight_block_index t
  funext y
  show V c main_v12 (((cfg0.win 6).blk t).view.emb y) = V c main_v12 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The second layer's weights. -/
abbrev w2At (c : Dev nD) (t : Fin cfg0.N) : Vec Ideal S128x128 .f32 := iblk0 (F := Ideal) V c 7 t
abbrev w2 (c : Dev nD) : Vec Ideal S128x128 .f32 := V c main_arg5

theorem w2At_eq (c : Dev nD) (t : Fin cfg0.N) : w2At V c t = w2 V c := by
  obtain ⟨-, -, -, -, ⟨e0, e1⟩, -⟩ := weight_block_index t
  funext y
  show V c main_arg5 (((cfg0.win 7).blk t).view.emb y) = V c main_arg5 y
  congr 1
  funext a
  apply Fin.ext
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- The second layer's bias. -/
abbrev bias2At (c : Dev nD) (t : Fin cfg0.N) : Vec Ideal S1x128 .f32 := iblk0 (F := Ideal) V c 8 t
abbrev bias2 (c : Dev nD) : Vec Ideal S1x128 .f32 := V c main_v13

theorem bias2At_eq (c : Dev nD) (t : Fin cfg0.N) : bias2At V c t = bias2 V c := by
  obtain ⟨-, -, -, -, -, ⟨e0, e1⟩, -⟩ := weight_block_index t
  funext y
  show V c main_v13 (((cfg0.win 8).blk t).view.emb y) = V c main_v13 y
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The coordinate layer's weights. -/
abbrev wc1At (c : Dev nD) (t : Fin cfg0.N) : Vec Ideal S128x128 .f32 := iblk0 (F := Ideal) V c 9 t
abbrev wc1 (c : Dev nD) : Vec Ideal S128x128 .f32 := V c main_arg7

theorem wc1At_eq (c : Dev nD) (t : Fin cfg0.N) : wc1At V c t = wc1 V c := by
  obtain ⟨-, -, -, -, -, -, ⟨e0, e1⟩, -⟩ := weight_block_index t
  funext y
  show V c main_arg7 (((cfg0.win 9).blk t).view.emb y) = V c main_arg7 y
  congr 1
  funext a
  apply Fin.ext
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- The coordinate layer's bias. -/
abbrev biascAt (c : Dev nD) (t : Fin cfg0.N) : Vec Ideal S1x128 .f32 := iblk0 (F := Ideal) V c 10 t
abbrev biasc (c : Dev nD) : Vec Ideal S1x128 .f32 := V c main_v14

theorem biascAt_eq (c : Dev nD) (t : Fin cfg0.N) : biascAt V c t = biasc V c := by
  obtain ⟨-, -, -, -, -, -, -, ⟨e0, e1⟩, -⟩ := weight_block_index t
  funext y
  show V c main_v14 (((cfg0.win 10).blk t).view.emb y) = V c main_v14 y
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-- The coordinate layer's closing column. -/
abbrev wc2At (c : Dev nD) (t : Fin cfg0.N) : Vec Ideal S128x1 .f32 := iblk0 (F := Ideal) V c 11 t
abbrev wc2 (c : Dev nD) : Vec Ideal S128x1 .f32 := V c main_arg9

theorem wc2At_eq (c : Dev nD) (t : Fin cfg0.N) : wc2At V c t = wc2 V c := by
  obtain ⟨-, -, -, -, -, -, -, -, e0, e1⟩ := weight_block_index t
  funext y
  show V c main_arg9 (((cfg0.win 11).blk t).view.emb y) = V c main_arg9 y
  congr 1
  funext a
  apply Fin.ext
  match a with
  | ⟨0, _⟩ => show win0_11.index t (0 : Fin 2) * 128 + 1 * (y 0).val = (y 0).val; rw [e0]; omega
  | ⟨1, _⟩ => show win0_11.index t (1 : Fin 2) * 1 + 1 * (y 1).val = (y 1).val; rw [e1]; omega

/-! ## One point's output blocks are the specification's arrays on the point's rows -/

/-- The messages of point t's 4000 edges, computed from the point's blocks, are rows 4000·t .. 4000·t + 3999 of the
    messages of all the edges. -/
theorem msg_at_block (c : Dev nD) (t : Fin cfg0.N) (j : S4000x128.Idx) (i : S640000x128.Idx)
    (h0 : (i 0).val = 4000 * t.val + (j 0).val) (h1 : (i 1).val = (j 1).val) :
    Cert.Egnn.edgeM (R := 4000) (srcRows V c t) (dstRows V c t) (relRows V c t) (wSrcAt V c t) (wDstAt V c t)
        (wSqAt V c t) (bias1At V c t) (w2At V c t) (bias2At V c t) j
      = Cert.Egnn.edgeM (R := 640000) (srcAll V c) (dstAll V c) (relAll V c) (wSrc V c) (wDst V c) (wSq V c)
        (bias1 V c) (w2 V c) (bias2 V c) i := by
  rw [wSrcAt_eq V c t, wDstAt_eq V c t, wSqAt_eq V c t, bias1At_eq V c t, w2At_eq V c t, bias2At_eq V c t]
  obtain ⟨p, q, rfl⟩ : ∃ (p : Fin 4000) (q : Fin 128), j = ix2 p q := ⟨j 0, j 1, eq_ix2 j⟩
  obtain ⟨p', q', rfl⟩ : ∃ (p' : Fin 640000) (q' : Fin 128), i = ix2 p' q' := ⟨i 0, i 1, eq_ix2 i⟩
  have h0' : p'.val = 4000 * t.val + p.val := h0
  obtain rfl : q' = q := Fin.ext h1
  exact edgeM_of_rows (srcRows V c t) (dstRows V c t) (relRows V c t) (srcAll V c) (dstAll V c) (relAll V c)
    (wSrc V c) (wDst V c) (wSq V c) (bias1 V c) (w2 V c) (bias2 V c) p p' q'
    (fun k => srcRows_apply V c t (ix2 p k) (ix2 p' k) h0' rfl)
    (fun k => dstRows_apply V c t (ix2 p k) (ix2 p' k) h0' rfl)
    (fun k => relRows_apply V c t (ix2 p k) (ix2 p' k) h0' rfl)

/-- The same for the coordinate updates. -/
theorem coord_at_block (c : Dev nD) (t : Fin cfg0.N) (j : S4000x3.Idx) (i : S640000x3.Idx)
    (h0 : (i 0).val = 4000 * t.val + (j 0).val) (h1 : (i 1).val = (j 1).val) :
    Cert.Egnn.edgeC (R := 4000) (srcRows V c t) (dstRows V c t) (relRows V c t) (wSrcAt V c t) (wDstAt V c t)
        (wSqAt V c t) (bias1At V c t) (w2At V c t) (bias2At V c t) (wc1At V c t) (biascAt V c t) (wc2At V c t) j
      = Cert.Egnn.edgeC (R := 640000) (srcAll V c) (dstAll V c) (relAll V c) (wSrc V c) (wDst V c) (wSq V c)
        (bias1 V c) (w2 V c) (bias2 V c) (wc1 V c) (biasc V c) (wc2 V c) i := by
  rw [wSrcAt_eq V c t, wDstAt_eq V c t, wSqAt_eq V c t, bias1At_eq V c t, w2At_eq V c t, bias2At_eq V c t,
    wc1At_eq V c t, biascAt_eq V c t, wc2At_eq V c t]
  obtain ⟨p, q, rfl⟩ : ∃ (p : Fin 4000) (q : Fin 3), j = ix2 p q := ⟨j 0, j 1, eq_ix2 j⟩
  obtain ⟨p', q', rfl⟩ : ∃ (p' : Fin 640000) (q' : Fin 3), i = ix2 p' q' := ⟨i 0, i 1, eq_ix2 i⟩
  have h0' : p'.val = 4000 * t.val + p.val := h0
  obtain rfl : q' = q := Fin.ext h1
  exact edgeC_of_rows (srcRows V c t) (dstRows V c t) (relRows V c t) (srcAll V c) (dstAll V c) (relAll V c)
    (wSrc V c) (wDst V c) (wSq V c) (bias1 V c) (w2 V c) (bias2 V c) (wc1 V c) (biasc V c) (wc2 V c) p p' q'
    (fun k => srcRows_apply V c t (ix2 p k) (ix2 p' k) h0' rfl)
    (fun k => dstRows_apply V c t (ix2 p k) (ix2 p' k) h0' rfl)
    (fun k => relRows_apply V c t (ix2 p k) (ix2 p' k) h0' rfl)

/-! ## What a point writes back -/

/-- Point t writes back, into the message array, its block of the messages of all the edges. -/
theorem flushed_msg (c : Dev nD) (t : Fin cfg0.N) :
    (dat0 (F := Ideal) V c).flushed 12 t
      = ((cfg0.win 12).blk t).view.read (Elt Ideal)
          (Cert.Egnn.edgeM (R := 640000) (srcAll V c) (dstAll V c) (relAll V c) (wSrc V c) (wDst V c) (wSq V c)
            (bias1 V c) (w2 V c) (bias2 V c)) := by
  show (cfg0.win 12).cut (grid0.coords t) ((dat0 (F := Ideal) V c).after 12 t) = _
  rw [after0_12]
  unfold out0_12
  rw [View.canon_unit_zero zero_offsets]
  simp only [View.ld_unit_zero (S := S4000x128) zero_offsets, View.ld_unit_zero (S := S4000x3) zero_offsets,
    View.ld_unit_zero (S := S128x128) zero_offsets, View.ld_unit_zero (S := S1x128) zero_offsets]
  rw [pay_msg (srcRows V c t) (dstRows V c t) (relRows V c t) (wSrcAt V c t) (wDstAt V c t) (wSqAt V c t)
    (bias1At V c t) (w2At V c t) (bias2At V c t)]
  obtain ⟨-, -, -, ⟨e0, e1⟩, -⟩ := row_block_index t
  funext j
  refine msg_at_block V c t ((cfg0.win 12).xinj (grid0.coords t) j) (((cfg0.win 12).blk t).view.emb j) ?_ ?_
  · show win0_12.index t (0 : Fin 2) * 4000 + 1 * (j 0).val = 4000 * t.val + (j 0).val; rw [e0]; omega
  · show win0_12.index t (1 : Fin 2) * 128 + 1 * (j 1).val = (j 1).val; rw [e1]; omega

/-- Point t writes back, into the coordinate-update array, its block of the updates of all the edges. -/
theorem flushed_coord (c : Dev nD) (t : Fin cfg0.N) :
    (dat0 (F := Ideal) V c).flushed 13 t
      = ((cfg0.win 13).blk t).view.read (Elt Ideal)
          (Cert.Egnn.edgeC (R := 640000) (srcAll V c) (dstAll V c) (relAll V c) (wSrc V c) (wDst V c) (wSq V c)
            (bias1 V c) (w2 V c) (bias2 V c) (wc1 V c) (biasc V c) (wc2 V c)) := by
  show (cfg0.win 13).cut (grid0.coords t) ((dat0 (F := Ideal) V c).after 13 t) = _
  rw [after0_13]
  unfold out0_13
  rw [View.canon_unit_zero zero_offsets]
  simp only [View.ld_unit_zero (S := S4000x128) zero_offsets, View.ld_unit_zero (S := S4000x3) zero_offsets,
    View.ld_unit_zero (S := S128x128) zero_offsets, View.ld_unit_zero (S := S1x128) zero_offsets,
    View.ld_unit_zero (S := S128x1) zero_offsets]
  rw [pay_coord (srcRows V c t) (dstRows V c t) (relRows V c t) (wSrcAt V c t) (wDstAt V c t) (wSqAt V c t)
    (bias1At V c t) (w2At V c t) (bias2At V c t) (wc1At V c t) (biascAt V c t) (wc2At V c t)]
  obtain ⟨-, -, -, -, e0, e1⟩ := row_block_index t
  funext j
  refine coord_at_block V c t ((cfg0.win 13).xinj (grid0.coords t) j) (((cfg0.win 13).blk t).view.emb j) ?_ ?_
  · show win0_13.index t (0 : Fin 2) * 4000 + 1 * (j 0).val = 4000 * t.val + (j 0).val; rw [e0]; omega
  · show win0_13.index t (1 : Fin 2) * 3 + 1 * (j 1).val = (j 1).val; rw [e1]; omega

/-! ## The 160 blocks tile the rows -/

/-- An index of the message array lies in point t's block iff each coordinate lies in the block's range on its axis. -/
theorem mem_msg_block (t : Fin cfg0.N) (i : S640000x128.Idx) :
    i ∈ ((cfg0.win 12).blk t).view.set ↔ ∀ a : Fin 2, win0_12.index t a * S4000x128.size a ≤ (i a).val
      ∧ (i a).val < win0_12.index t a * S4000x128.size a + S4000x128.size a := by
  show i ∈ ((View.whole main_v15_0).slice (win0_12.rect t)).set ↔ _
  rw [View.set_slice_whole, Rect.mem_set_unit]
  exact Iff.rfl

/-- Row r of the message array lies in the block of point r / 4000. -/
theorem msg_blocks_cover (i : S640000x128.Idx) :
    ∃ t : Fin cfg0.N, (cfg0.win 12).flush t = true ∧ i ∈ ((cfg0.win 12).blk t).view.set := by
  have hi0 : (i 0).val < 640000 := (i 0).isLt
  have hi1 : (i 1).val < 128 := (i 1).isLt
  have hN : grid0.N = 160 := N_0
  let t : Fin cfg0.N := ⟨(i 0).val / 4000, by show (i 0).val / 4000 < grid0.N; rw [hN]; omega⟩
  obtain ⟨-, -, -, ⟨e0, e1⟩, -⟩ := row_block_index t
  refine ⟨t, flush0_12 t, ?_⟩
  rw [mem_msg_block]
  intro a
  match a with
  | ⟨0, _⟩ =>
    show win0_12.index t (0 : Fin 2) * 4000 ≤ (i 0).val ∧ (i 0).val < win0_12.index t (0 : Fin 2) * 4000 + 4000
    rw [e0]
    show (i 0).val / 4000 * 4000 ≤ (i 0).val ∧ (i 0).val < (i 0).val / 4000 * 4000 + 4000
    omega
  | ⟨1, _⟩ =>
    show win0_12.index t (1 : Fin 2) * 128 ≤ (i 1).val ∧ (i 1).val < win0_12.index t (1 : Fin 2) * 128 + 128
    rw [e1]; omega

/-- The same two facts for the coordinate-update array, three numbers a row. -/
theorem mem_coord_block (t : Fin cfg0.N) (i : S640000x3.Idx) :
    i ∈ ((cfg0.win 13).blk t).view.set ↔ ∀ a : Fin 2, win0_13.index t a * S4000x3.size a ≤ (i a).val
      ∧ (i a).val < win0_13.index t a * S4000x3.size a + S4000x3.size a := by
  show i ∈ ((View.whole main_v15_1).slice (win0_13.rect t)).set ↔ _
  rw [View.set_slice_whole, Rect.mem_set_unit]
  exact Iff.rfl

theorem coord_blocks_cover (i : S640000x3.Idx) :
    ∃ t : Fin cfg0.N, (cfg0.win 13).flush t = true ∧ i ∈ ((cfg0.win 13).blk t).view.set := by
  have hi0 : (i 0).val < 640000 := (i 0).isLt
  have hi1 : (i 1).val < 3 := (i 1).isLt
  have hN : grid0.N = 160 := N_0
  let t : Fin cfg0.N := ⟨(i 0).val / 4000, by show (i 0).val / 4000 < grid0.N; rw [hN]; omega⟩
  obtain ⟨-, -, -, -, e0, e1⟩ := row_block_index t
  refine ⟨t, flush0_13 t, ?_⟩
  rw [mem_coord_block]
  intro a
  match a with
  | ⟨0, _⟩ =>
    show win0_13.index t (0 : Fin 2) * 4000 ≤ (i 0).val ∧ (i 0).val < win0_13.index t (0 : Fin 2) * 4000 + 4000
    rw [e0]
    show (i 0).val / 4000 * 4000 ≤ (i 0).val ∧ (i 0).val < (i 0).val / 4000 * 4000 + 4000
    omega
  | ⟨1, _⟩ =>
    show win0_13.index t (1 : Fin 2) * 3 ≤ (i 1).val ∧ (i 1).val < win0_13.index t (1 : Fin 2) * 3 + 3
    rw [e1]; omega

end EdgeLaunch

open EdgeLaunch

/-! ## The arrays after the launch -/

/-- After the edge launch the message array is the specification's, of the arrays the launch found. -/
theorem arr_msg (c : Dev nD) :
    (dat0 (F := Ideal) V c).arrAt 12 cfg0.N
      = Cert.Egnn.edgeM (R := 640000) (V c main_v4) (V c main_v5) (V c main_v8) (V c main_v9) (V c main_v10)
          (V c main_v11) (V c main_v12) (V c main_arg5) (V c main_v13) := by
  exact (dat0 (F := Ideal) V c).arrAt_eq_of_cover 12
    (Cert.Egnn.edgeM (R := 640000) (srcAll V c) (dstAll V c) (relAll V c) (wSrc V c) (wDst V c) (wSq V c)
      (bias1 V c) (w2 V c) (bias2 V c))
    (fun t _ => flushed_msg V c t) (msg_blocks_cover)

/-- After the edge launch the coordinate-update array is the specification's, of the arrays the launch found. -/
theorem arr_coord (c : Dev nD) :
    (dat0 (F := Ideal) V c).arrAt 13 cfg0.N
      = Cert.Egnn.edgeC (R := 640000) (V c main_v4) (V c main_v5) (V c main_v8) (V c main_v9) (V c main_v10)
          (V c main_v11) (V c main_v12) (V c main_arg5) (V c main_v13) (V c main_arg7) (V c main_v14) (V c main_arg9) := by
  exact (dat0 (F := Ideal) V c).arrAt_eq_of_cover 13
    (Cert.Egnn.edgeC (R := 640000) (srcAll V c) (dstAll V c) (relAll V c) (wSrc V c) (wDst V c) (wSq V c)
      (bias1 V c) (w2 V c) (bias2 V c) (wc1 V c) (biasc V c) (wc2 V c))
    (fun t _ => flushed_coord V c t) (coord_blocks_cover)

end Cert.KernelIdeal.Val

end
-- ==== Proof.PayNode.lean ====
/-
  The node kernel's stored value, as a function of the blocks it loads, is the node layer of the specification applied
  to those blocks (5000 nodes at a time): at the ideal instance a matrix product into a zero accumulator is the plain
  sum over the contracted axis, a change of float format is the identity, and the bias broadcast repeats a row.
-/
import proofs.«418114_j661424963982_2_alg».proof.Proof.Gen.KernelIdeal.Skeleton
import proofs.«418114_j661424963982_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx

/-! ## The [5000,128] × [128,128] product's operand indices

At output index (p, q) and contraction position k the left operand is read at (p, k) and the right one at (k, q):
one fact per operand and axis. -/

/-- The left operand's row is the output's row. -/
private theorem nodeDot_lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
private theorem nodeDot_lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction position. -/
private theorem nodeDot_rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the output's column. -/
private theorem nodeDot_rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] product into the zero accumulator, read at (p, q): the sum over k of a(p,k) · w(k,q). -/
private theorem nodeDot_zero_apply {φ₁ φ₂ : FTy} (a : FVec Ideal S5000x128 φ₁) (w : FVec Ideal S128x128 φ₂)
    (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (by
      match ax with
      | ⟨0, _⟩ => exact nodeDot_lhs_row _ _
      | ⟨1, _⟩ => exact (nodeDot_lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (by
      match ax with
      | ⟨0, _⟩ => exact (nodeDot_rhs_row _ _).trans hk
      | ⟨1, _⟩ => exact nodeDot_rhs_col _ _)
  rw [el, er]

/-! ## The pointwise pieces -/

/-- The logistic of a vector, read at an index. -/
private theorem logistic_at {s : Shape} {φ : FTy} (a : FVec Ideal s φ) (i : s.Idx) : logistic a i = Ideal.logistic (a i) := rfl

/-- The specification's node array read at (p, q) is the node row of rows p, at column q. -/
private theorem nodeH_at (h g : Cert.Egnn.Mat 5000 128) (Wh Wm : Cert.Egnn.Mat 128 128) (b1 : Cert.Egnn.Mat 1 128)
    (W2 : Cert.Egnn.Mat 128 128) (b2 : Cert.Egnn.Mat 1 128) (p : Fin 5000) (q : Fin 128) :
    Cert.Egnn.nodeH (R := 5000) h g Wh Wm b1 W2 b2 (ix2 p q)
      = Cert.Egnn.nodeRow (Cert.Egnn.row h p) (Cert.Egnn.row g p) Wh Wm b1 W2 b2 q := rfl

/-- The stored block of new node features is the specification's node array of the loaded blocks. -/
theorem pay_node (x0 x1 : Vec Ideal S5000x128 .f32) (x2 x3 : Vec Ideal S128x128 .f32) (x4 : Vec Ideal S1x128 .f32)
    (x5 : Vec Ideal S128x128 .f32) (x6 : Vec Ideal S1x128 .f32) :
    k1_pay1 (F := Ideal) x0 x1 x2 x3 x4 x5 x6 = Cert.Egnn.nodeH (R := 5000) x0 x1 x2 x3 x4 x5 x6 := by
  funext i
  obtain ⟨p, q, rfl⟩ : ∃ (p : Fin 5000) (q : Fin 128), i = ix2 p q := ⟨i 0, i 1, eq_ix2 i⟩
  rw [nodeH_at]
  unfold k1_pay1
  simp only [shapeCast_self]
  simp only [addf_apply, mulf_apply, truncf_apply, logistic_at, nodeDot_zero_apply, broadcastTo_1b_ab_apply]
  simp only [Cert.Egnn.nodeRow, Cert.Egnn.row, Cert.Egnn.gate]

end Cert.KernelIdeal.Val

end
-- ==== Proof.Blocks1.lean ====
/-
  The node launch: 10 grid points, point t working on nodes 5000·t .. 5000·t + 4999. Each point's output block is the
  specification's node array restricted to those rows, the 10 blocks tile the 50000 rows, so after the launch the
  output array is the specification's node array of the arrays the launch found.
-/
import proofs.«418114_j661424963982_2_alg».proof.Proof.Gen.KernelIdeal.Frame
import proofs.«418114_j661424963982_2_alg».proof.Proof.PayNode
import proofs.«418114_j661424963982_2_alg».proof.Proof.Spec
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

namespace NodeLaunch

/-! ## The specification's array, read row by row -/

/-- A node's new features are a function of the node's two rows: two pairs of row arrays that agree on the rows of
    nodes e and e' give those two nodes the same new features, column by column. -/
theorem nodeH_of_rows {R R' : Nat} (h g : Cert.Egnn.Mat R 128) (h' g' : Cert.Egnn.Mat R' 128)
    (Wh Wm : Cert.Egnn.Mat 128 128) (b1 : Cert.Egnn.Mat 1 128) (W2 : Cert.Egnn.Mat 128 128) (b2 : Cert.Egnn.Mat 1 128)
    (e : Fin R) (e' : Fin R') (j : Fin 128)
    (h0 : ∀ k : Fin 128, h (ix2 e k) = h' (ix2 e' k)) (h1 : ∀ k : Fin 128, g (ix2 e k) = g' (ix2 e' k)) :
    Cert.Egnn.nodeH h g Wh Wm b1 W2 b2 (ix2 e j) = Cert.Egnn.nodeH h' g' Wh Wm b1 W2 b2 (ix2 e' j) := by
  have r0 : Cert.Egnn.row h e = Cert.Egnn.row h' e' := funext h0
  have r1 : Cert.Egnn.row g e = Cert.Egnn.row g' e' := funext h1
  show Cert.Egnn.nodeRow (Cert.Egnn.row h e) (Cert.Egnn.row g e) Wh Wm b1 W2 b2 j
    = Cert.Egnn.nodeRow (Cert.Egnn.row h' e') (Cert.Egnn.row g' e') Wh Wm b1 W2 b2 j
  rw [r0, r1]

/-! ## Where each block sits in its array -/

/-- Both coordinates of a block read through the whole-block rectangle start at zero. -/
theorem zero_offsets : (![0, 0] : Fin 2 → Nat) = fun _ => 0 :=
  funext fun a => match a with | ⟨0, _⟩ => rfl | ⟨1, _⟩ => rfl

/-- At point t the two row windows and the output window sit at block (t, 0). -/
theorem row_block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_7.index t (0 : Fin 2) = t.val ∧ win1_7.index t (1 : Fin 2) = 0) :=
  (by decide +kernel : ∀ t : Fin grid1.N, _)

/-- At every point the five weight windows sit at block (0, 0). -/
theorem weight_block_index : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-! ## The two row windows: a block's row p is the array's row 5000·t + p -/

/-- Point t's block of the nodes' features, and the array of all 50000 nodes' it is cut from. -/
abbrev featRows (c : Dev nD) (t : Fin cfg1.N) : Vec Ideal S5000x128 .f32 := iblk1 (F := Ideal) V c 0 t
abbrev featAll (c : Dev nD) : Vec Ideal S50000x128 .f32 := V c main_arg0

theorem featRows_apply (c : Dev nD) (t : Fin cfg1.N) (x : S5000x128.Idx) (k : S50000x128.Idx)
    (hk0 : (k 0).val = 5000 * t.val + (x 0).val) (hk1 : (k 1).val = (x 1).val) :
    featRows V c t x = featAll V c k := by
  obtain ⟨⟨e0, e1⟩, -⟩ := row_block_index t
  show V c main_arg0 (((cfg1.win 0).blk t).view.emb x) = V c main_arg0 k
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The same for the messages summed at each node. -/
abbrev aggRows (c : Dev nD) (t : Fin cfg1.N) : Vec Ideal S5000x128 .f32 := iblk1 (F := Ideal) V c 1 t
abbrev aggAll (c : Dev nD) : Vec Ideal S50000x128 .f32 := V c main_v21

theorem aggRows_apply (c : Dev nD) (t : Fin cfg1.N) (x : S5000x128.Idx) (k : S50000x128.Idx)
    (hk0 : (k 0).val = 5000 * t.val + (x 0).val) (hk1 : (k 1).val = (x 1).val) :
    aggRows V c t x = aggAll V c k := by
  obtain ⟨-, ⟨e0, e1⟩, -⟩ := row_block_index t
  show V c main_v21 (((cfg1.win 1).blk t).view.emb x) = V c main_v21 k
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-! ## The five weight windows: the block at every point is the whole array -/

/-- The first layer's band that acts on the node's own features. -/
abbrev wSelfAt (c : Dev nD) (t : Fin cfg1.N) : Vec Ideal S128x128 .f32 := iblk1 (F := Ideal) V c 2 t
abbrev wSelf (c : Dev nD) : Vec Ideal S128x128 .f32 := V c main_v22

theorem wSelfAt_eq (c : Dev nD) (t : Fin cfg1.N) : wSelfAt V c t = wSelf V c := by
  obtain ⟨⟨e0, e1⟩, -⟩ := weight_block_index t
  funext y
  show V c main_v22 (((cfg1.win 2).blk t).view.emb y) = V c main_v22 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first layer's band that acts on the summed messages. -/
abbrev wAggAt (c : Dev nD) (t : Fin cfg1.N) : Vec Ideal S128x128 .f32 := iblk1 (F := Ideal) V c 3 t
abbrev wAgg (c : Dev nD) : Vec Ideal S128x128 .f32 := V c main_v23

theorem wAggAt_eq (c : Dev nD) (t : Fin cfg1.N) : wAggAt V c t = wAgg V c := by
  obtain ⟨-, ⟨e0, e1⟩, -⟩ := weight_block_index t
  funext y
  show V c main_v23 (((cfg1.win 3).blk t).view.emb y) = V c main_v23 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The first layer's bias. -/
abbrev bias1At (c : Dev nD) (t : Fin cfg1.N) : Vec Ideal S1x128 .f32 := iblk1 (F := Ideal) V c 4 t
abbrev bias1 (c : Dev nD) : Vec Ideal S1x128 .f32 := V c main_v24

theorem bias1At_eq (c : Dev nD) (t : Fin cfg1.N) : bias1At V c t = bias1 V c := by
  obtain ⟨-, -, ⟨e0, e1⟩, -⟩ := weight_block_index t
  funext y
  show V c main_v24 (((cfg1.win 4).blk t).view.emb y) = V c main_v24 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second layer's weights. -/
abbrev w2At (c : Dev nD) (t : Fin cfg1.N) : Vec Ideal S128x128 .f32 := iblk1 (F := Ideal) V c 5 t
abbrev w2 (c : Dev nD) : Vec Ideal S128x128 .f32 := V c main_arg12

theorem w2At_eq (c : Dev nD) (t : Fin cfg1.N) : w2At V c t = w2 V c := by
  obtain ⟨-, -, -, ⟨e0, e1⟩, -⟩ := weight_block_index t
  funext y
  show V c main_arg12 (((cfg1.win 5).blk t).view.emb y) = V c main_arg12 y
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The second layer's bias. -/
abbrev bias2At (c : Dev nD) (t : Fin cfg1.N) : Vec Ideal S1x128 .f32 := iblk1 (F := Ideal) V c 6 t
abbrev bias2 (c : Dev nD) : Vec Ideal S1x128 .f32 := V c main_v25

theorem bias2At_eq (c : Dev nD) (t : Fin cfg1.N) : bias2At V c t = bias2 V c := by
  obtain ⟨-, -, -, -, e0, e1⟩ := weight_block_index t
  funext y
  show V c main_v25 (((cfg1.win 6).blk t).view.emb y) = V c main_v25 y
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-! ## One point's output block is the specification's array on the point's rows -/

/-- The new features of point t's 5000 nodes, computed from the point's blocks, are rows 5000·t .. 5000·t + 4999 of
    the new features of all the nodes. -/
theorem node_at_block (c : Dev nD) (t : Fin cfg1.N) (j : S5000x128.Idx) (i : S50000x128.Idx)
    (h0 : (i 0).val = 5000 * t.val + (j 0).val) (h1 : (i 1).val = (j 1).val) :
    Cert.Egnn.nodeH (R := 5000) (featRows V c t) (aggRows V c t) (wSelfAt V c t) (wAggAt V c t) (bias1At V c t)
        (w2At V c t) (bias2At V c t) j
      = Cert.Egnn.nodeH (R := 50000) (featAll V c) (aggAll V c) (wSelf V c) (wAgg V c) (bias1 V c) (w2 V c)
        (bias2 V c) i := by
  rw [wSelfAt_eq V c t, wAggAt_eq V c t, bias1At_eq V c t, w2At_eq V c t, bias2At_eq V c t]
  obtain ⟨p, q, rfl⟩ : ∃ (p : Fin 5000) (q : Fin 128), j = ix2 p q := ⟨j 0, j 1, eq_ix2 j⟩
  obtain ⟨p', q', rfl⟩ : ∃ (p' : Fin 50000) (q' : Fin 128), i = ix2 p' q' := ⟨i 0, i 1, eq_ix2 i⟩
  have h0' : p'.val = 5000 * t.val + p.val := h0
  obtain rfl : q' = q := Fin.ext h1
  exact nodeH_of_rows (featRows V c t) (aggRows V c t) (featAll V c) (aggAll V c)
    (wSelf V c) (wAgg V c) (bias1 V c) (w2 V c) (bias2 V c) p p' q'
    (fun k => featRows_apply V c t (ix2 p k) (ix2 p' k) h0' rfl)
    (fun k => aggRows_apply V c t (ix2 p k) (ix2 p' k) h0' rfl)

/-! ## What a point writes back -/

/-- Point t writes back its block of the new features of all the nodes. -/
theorem flushed_node (c : Dev nD) (t : Fin cfg1.N) :
    (dat1 (F := Ideal) V c).flushed 7 t
      = ((cfg1.win 7).blk t).view.read (Elt Ideal)
          (Cert.Egnn.nodeH (R := 50000) (featAll V c) (aggAll V c) (wSelf V c) (wAgg V c) (bias1 V c) (w2 V c)
            (bias2 V c)) := by
  show (cfg1.win 7).cut (grid1.coords t) ((dat1 (F := Ideal) V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  rw [pay_node (featRows V c t) (aggRows V c t) (wSelfAt V c t) (wAggAt V c t) (bias1At V c t) (w2At V c t)
    (bias2At V c t)]
  obtain ⟨-, -, e0, e1⟩ := row_block_index t
  funext j
  refine node_at_block V c t ((cfg1.win 7).xinj (grid1.coords t) j) (((cfg1.win 7).blk t).view.emb j) ?_ ?_
  · show win1_7.index t (0 : Fin 2) * 5000 + 1 * (j 0).val = 5000 * t.val + (j 0).val; rw [e0]; omega
  · show win1_7.index t (1 : Fin 2) * 128 + 1 * (j 1).val = (j 1).val; rw [e1]; omega

/-! ## The 10 blocks tile the rows -/

/-- An index of the output array lies in point t's block iff each coordinate lies in the block's range on its axis. -/
theorem mem_node_block (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v26).slice (win1_7.rect t)).set ↔ _
  rw [View.set_slice_whole, Rect.mem_set_unit]
  exact Iff.rfl

/-- Row r of the output array lies in the block of point r / 5000. -/
theorem node_blocks_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  obtain ⟨-, -, e0, e1⟩ := row_block_index t
  refine ⟨t, flush1_7 t, ?_⟩
  rw [mem_node_block]
  intro a
  match a with
  | ⟨0, _⟩ =>
    show win1_7.index t (0 : Fin 2) * 5000 ≤ (i 0).val ∧ (i 0).val < win1_7.index t (0 : Fin 2) * 5000 + 5000
    rw [e0]
    show (i 0).val / 5000 * 5000 ≤ (i 0).val ∧ (i 0).val < (i 0).val / 5000 * 5000 + 5000
    omega
  | ⟨1, _⟩ =>
    show win1_7.index t (1 : Fin 2) * 128 ≤ (i 1).val ∧ (i 1).val < win1_7.index t (1 : Fin 2) * 128 + 128
    rw [e1]; omega

end NodeLaunch

open NodeLaunch

/-! ## The array after the launch -/

/-- After the node launch the output array is the specification's, of the arrays the launch found. -/
theorem arr_node (c : Dev nD) :
    (dat1 (F := Ideal) V c).arrAt 7 cfg1.N
      = Cert.Egnn.nodeH (R := 50000) (V c main_arg0) (V c main_v21) (V c main_v22) (V c main_v23) (V c main_v24)
          (V c main_arg12) (V c main_v25) := by
  exact (dat1 (F := Ideal) V c).arrAt_eq_of_cover 7
    (Cert.Egnn.nodeH (R := 50000) (featAll V c) (aggAll V c) (wSelf V c) (wAgg V c) (bias1 V c) (w2 V c)
      (bias2 V c))
    (fun t _ => flushed_node V c t) (node_blocks_cover)

end Cert.KernelIdeal.Val

end
-- ==== Proof.HostTerms.lean ====
/-
  The host-side arithmetic around the two kernel launches, as named functions of the argument arrays.

  An edge list e : 2 × 640000 gives a source row (its row 0) and a destination row (its row 1). A table lookup
  "take" first moves a negative index up by the table's height 50000, then reads the table at that index (the read
  itself confines the index to 0..49999), and finally replaces the whole looked-up row by a fill value wherever the
  moved index was outside 0..49999. The relative position is the difference of two lookups of the coordinate table.
  The 257 × 128 weight matrix is cut into the bands of rows 0..127, 128..255 and 256; the 256 × 128 one into rows
  0..127 and 128..255; a bias vector of length 128 becomes a 1 × 128 array. Messages are summed into their
  destination nodes starting from zero.
-/
import proofs.«418114_j661424963982_2_alg».proof.Proof.Gen.KernelIdeal

noncomputable section

namespace Cert.KernelIdeal.Val

open Cert.KernelIdeal Cert.KernelIdeal.Gen Idealize.ShloMosaic

variable {F : FTy → Type} [FloatOps F]

/-- The edges' source nodes. -/
def srcIdx (e : IVec S2x640000 32) : IVec S640000 32 :=
  shapeCast _ (extractStridedSlice S1x640000 ![0, 0] e slices_S2x640000_S1x640000_0_0) shapeCasts_S1x640000_S640000

/-- The edges' destination nodes. -/
def dstIdx (e : IVec S2x640000 32) : IVec S640000 32 :=
  shapeCast _ (extractStridedSlice S1x640000 ![1, 0] e slices_S2x640000_S1x640000_1_0) shapeCasts_S1x640000_S640000

/-- A negative index moved up by the table's height. -/
def wrapIdx (i : IVec S640000 32) : IVec S640000 32 :=
  select (cmpi .slt i (broadcastInDim S640000 ![] bcast_S_S640000 (constantI S_ 32 0#32)))
    (addi i (broadcastInDim S640000 ![] bcast_S_S640000 (constantI S_ 32 50000#32))) i

/-- An index vector as a one-column array. -/
def colIdx (i : IVec S640000 32) : IVec S640000x1 32 := broadcastInDim S640000x1 ![0] bcast_S640000_S640000x1_0 i

/-- Per edge: is the (moved) index inside 0..49999? -/
def inTable (i2 : IVec S640000x1 32) : IVec S640000 1 :=
  Host.reduce IntOp.andi
    (andi (cmpi .sge i2 (broadcastInDim S640000x1 ![] bcast_S_S640000x1 (constantI S_ 32 0#32)))
      (cmpi .sle i2 (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

/-- Lookup of 128-wide rows with the fill outside the table. -/
def take128 (x : FVec F S50000x128 .f32) (i : IVec S640000 32) : FVec F S640000x128 .f32 :=
  select (broadcastInDim S640000x128 ![0] bcast_S640000_S640000x128_0 (inTable (colIdx (wrapIdx i))))
    (Host.gather gather_S50000x128_S640000x1_S640000x128_1_0_n_n_0_1_1128 x (colIdx (wrapIdx i)))
    (broadcastInDim S640000x128 ![] bcast_S_S640000x128 (constant S_ .f32 0x7FC00000#32))

/-- Lookup of 3-wide rows with the fill outside the table. -/
def take3 (x : FVec F S50000x3 .f32) (i : IVec S640000 32) : FVec F S640000x3 .f32 :=
  select (broadcastInDim S640000x3 ![0] bcast_S640000_S640000x3_0 (inTable (colIdx (wrapIdx i))))
    (Host.gather gather_S50000x3_S640000x1_S640000x3_1_0_n_n_0_1_13 x (colIdx (wrapIdx i)))
    (broadcastInDim S640000x3 ![] bcast_S_S640000x3 (constant S_ .f32 0x7FC00000#32))

/-- Source position minus destination position, per edge. -/
def relPos (x : FVec F S50000x3 .f32) (e : IVec S2x640000 32) : FVec F S640000x3 .f32 :=
  subf (take3 x (srcIdx e)) (take3 x (dstIdx e))

/-- Rows 0..127 of the first edge weight matrix. -/
def bandA (w : FVec F S257x128 .f32) : FVec F S128x128 .f32 := extractStridedSlice S128x128 ![0, 0] w slices_S257x128_S128x128_0_0
/-- Rows 128..255 of it. -/
def bandB (w : FVec F S257x128 .f32) : FVec F S128x128 .f32 := extractStridedSlice S128x128 ![128, 0] w slices_S257x128_S128x128_128_0
/-- Row 256 of it. -/
def bandQ (w : FVec F S257x128 .f32) : FVec F S1x128 .f32 := extractStridedSlice S1x128 ![256, 0] w slices_S257x128_S1x128_256_0
/-- A bias vector as a one-row array. -/
def bias2d (b : FVec F S128 .f32) : FVec F S1x128 .f32 := shapeCast _ b shapeCasts_S128_S1x128
/-- Rows 0..127 of the first node weight matrix. -/
def nbandH (w : FVec F S256x128 .f32) : FVec F S128x128 .f32 := extractStridedSlice S128x128 ![0, 0] w slices_S256x128_S128x128_0_0
/-- Rows 128..255 of it. -/
def nbandM (w : FVec F S256x128 .f32) : FVec F S128x128 .f32 := extractStridedSlice S128x128 ![128, 0] w slices_S256x128_S128x128_128_0

/-- Per-edge 3-wide rows summed into their destination nodes, from zero. -/
def scat3 (i : IVec S640000 32) (u : FVec F S640000x3 .f32) : FVec F S50000x3 .f32 :=
  Host.scatterAdd scatter_S50000x3_S640000x1_S640000x3_1_0_0_1
    (broadcastInDim S50000x3 ![] bcast_S_S50000x3 (constant S_ .f32 0x00000000#32)) (colIdx i) u

/-- Per-edge 128-wide rows summed into their destination nodes, from zero. -/
def scat128 (i : IVec S640000 32) (u : FVec F S640000x128 .f32) : FVec F S50000x128 .f32 :=
  Host.scatterAdd scatter_S50000x128_S640000x1_S640000x128_1_0_0_1
    (broadcastInDim S50000x128 ![] bcast_S_S50000x128 (constant S_ .f32 0x00000000#32)) (colIdx i) u

end Cert.KernelIdeal.Val

end
-- ==== Proof.KHost0.lean ====
/-
  What the edge launch finds in its twelve input arrays: the host operations before it, read back as functions of the
  argument arrays (two feature lookups, the relative positions, the three bands of the first weight matrix, the three
  bias rows; the other three weight matrices are arguments themselves).

  The contents at the launch are a fold of six stretches of operations over the argument arrays. Each operation puts
  its function of its operands' contents into its own result buffer and leaves every other buffer alone, so a buffer
  is read back by going through the fold from the last operation to the first: at the operation that made it, take
  that operation's function and read its operands the same way; at any other operation, step over. An argument array
  is never a result, so it is stepped over to the very start. The operations of a lookup are stated over references
  that carry their value's type; moving contents to a buffer's own type and back is the identity, and these moves
  cancel in pairs. What is left is the composed term, which is the named function by unfolding its definition.
-/
import proofs.«418114_j661424963982_2_alg».proof.Proof.Gen.KernelIdeal.Frame
import proofs.«418114_j661424963982_2_alg».proof.Proof.HostTerms
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- One buffer read back through all six stretches to the argument arrays, the identity moves between a value's type
    and its buffer's type cancelled. -/
local macro "read_back" : tactic => `(tactic| (
  after_results_simp
  try simp only [StableHlo.TRef.ofBuf, StableHlo.TRef.toBuf, cast_cast, cast_eq]))

/-! ## The two feature lookups: rows of the node features at the edges' source and destination nodes -/

theorem V6_v4 (c : Dev nD) : V6 m ρ c main_v4 = take128 (m ((c : Thread nD τ).loc main_arg0)) (srcIdx (m ((c : Thread nD τ).loc main_arg2))) := by
  show W6 m ρ c (Proc.devRef .tc main_v4) = _
  read_back
  rfl
theorem V6_v5 (c : Dev nD) : V6 m ρ c main_v5 = take128 (m ((c : Thread nD τ).loc main_arg0)) (dstIdx (m ((c : Thread nD τ).loc main_arg2))) := by
  show W6 m ρ c (Proc.devRef .tc main_v5) = _
  read_back
  rfl

/-! ## The relative positions: the difference of the two lookups of the coordinate table -/

theorem V6_v8 (c : Dev nD) : V6 m ρ c main_v8 = relPos (m ((c : Thread nD τ).loc main_arg1)) (m ((c : Thread nD τ).loc main_arg2)) := by
  show W6 m ρ c (Proc.devRef .tc main_v8) = _
  read_back
  rfl

/-! ## The bands of the first weight matrix and the bias rows: one slice or one reshape of an argument array each;
    the other weight matrices are argument arrays, which no operation writes -/

theorem V6_v9 (c : Dev nD) : V6 m ρ c main_v9 = bandA (m ((c : Thread nD τ).loc main_arg3)) := by
  show W6 m ρ c (Proc.devRef .tc main_v9) = _
  read_back
  rfl
theorem V6_v10 (c : Dev nD) : V6 m ρ c main_v10 = bandB (m ((c : Thread nD τ).loc main_arg3)) := by
  show W6 m ρ c (Proc.devRef .tc main_v10) = _
  read_back
  rfl
theorem V6_v11 (c : Dev nD) : V6 m ρ c main_v11 = bandQ (m ((c : Thread nD τ).loc main_arg3)) := by
  show W6 m ρ c (Proc.devRef .tc main_v11) = _
  read_back
  rfl
theorem V6_v12 (c : Dev nD) : V6 m ρ c main_v12 = bias2d (m ((c : Thread nD τ).loc main_arg4)) := by
  show W6 m ρ c (Proc.devRef .tc main_v12) = _
  read_back
  rfl
theorem V6_arg5 (c : Dev nD) : V6 m ρ c main_arg5 = (m ((c : Thread nD τ).loc main_arg5)) := by
  show W6 m ρ c (Proc.devRef .tc main_arg5) = _
  read_back
theorem V6_v13 (c : Dev nD) : V6 m ρ c main_v13 = bias2d (m ((c : Thread nD τ).loc main_arg6)) := by
  show W6 m ρ c (Proc.devRef .tc main_v13) = _
  read_back
  rfl
theorem V6_arg7 (c : Dev nD) : V6 m ρ c main_arg7 = (m ((c : Thread nD τ).loc main_arg7)) := by
  show W6 m ρ c (Proc.devRef .tc main_arg7) = _
  read_back
theorem V6_v14 (c : Dev nD) : V6 m ρ c main_v14 = bias2d (m ((c : Thread nD τ).loc main_arg8)) := by
  show W6 m ρ c (Proc.devRef .tc main_v14) = _
  read_back
  rfl
theorem V6_arg9 (c : Dev nD) : V6 m ρ c main_arg9 = (m ((c : Thread nD τ).loc main_arg9)) := by
  show W6 m ρ c (Proc.devRef .tc main_arg9) = _
  read_back

end Cert.KernelIdeal.Val

end
-- ==== Proof.KHost1.lean ====
/-
  What the node launch finds in its seven input arrays, and what the program returns: the host operations after the
  edge launch read back. The messages and coordinate updates the edge launch left are summed into their destination
  nodes; the node launch reads the node features, the summed messages, the two bands of its first weight matrix and
  two bias rows; the first result is the node launch's output array, the second the coordinates plus the summed updates.
-/
import proofs.«418114_j661424963982_2_alg».proof.Proof.Gen.KernelIdeal.Frame
import proofs.«418114_j661424963982_2_alg».proof.Proof.HostTerms
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## Buffers a stretch leaves alone

The buffer contents at the segment boundaries are a fold through the program. A buffer that no operation of a
stretch writes holds after the stretch what it held before; a buffer that is none of a launch's arrays holds after
the launch what it held before. -/

/-- No operation of the named stretch writes the buffer on the left: every written reference differs from it. -/
local macro "stretch_leaves " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The last stretch is one addition into the second result; any other buffer is as the node launch left it. -/
private theorem lastStretch_leaves (c : Dev nD) (b : Ref sig .tc) (hb : b ≠ main_v27) :
    W10 m ρ c (Proc.devRef .tc b) = W9 m ρ c (Proc.devRef .tc b) :=
  StableHlo.after_of_forall_not_mem (b := Proc.devRef .tc b) _ _ (List.forall_iff_forall_mem.mp (by
    simp only [hostOps2, List.Forall, StableHlo.binary_writes, Finset.mem_singleton]
    exact StableHlo.devRef_ne_of_ne hb))

/-- The references the stretch between the two launches writes. -/
private abbrev midWrites : List (Ref sig .tc) :=
  [main_cst, main_v16, main_v17, main_v18, main_cst_0, main_v19, main_v20, main_v21, main_v22, main_v23, main_v24, main_v25]

private theorem midStretch_writes :
    (hostOps1 : List (HloOp τ sig (Elt F))).Forall fun op => op.writes ⊆ (midWrites.map (Proc.devRef (τ := τ) .tc)).toFinset := by
  simp only [hostOps1, List.Forall, StableHlo.nullary_writes, StableHlo.unary_writes, StableHlo.ternary_writes,
    StableHlo.reshape_writes, Finset.singleton_subset_iff, List.mem_toFinset]
  repeat' apply And.intro
  all_goals exact List.mem_map_of_mem (by decide)

/-- A buffer outside that list is, at the node launch's entry, as the edge launch left it. -/
private theorem midStretch_leaves (c : Dev nD) (b : Ref sig .tc) (hb : b ∉ midWrites) :
    W8 m ρ c (Proc.devRef .tc b) = W7 m ρ c (Proc.devRef .tc b) :=
  StableHlo.after_of_writes_sub hostOps1 _ midStretch_writes hb

/-- A buffer that neither the middle stretch, nor the node launch, nor the last stretch touches holds at the edge
    launch's exit what it holds at the end. -/
private theorem exit0_eq_end (c : Dev nD) (b : Ref sig .tc) (h1 : b ∉ midWrites) (h2 : ∀ w, Pipeline.arrRef spec1 w ≠ b)
    (h3 : b ≠ main_v27) : W7 m ρ c (Proc.devRef .tc b) = W10 m ρ c (Proc.devRef .tc b) :=
  calc W7 m ρ c (Proc.devRef .tc b)
    _ = W8 m ρ c (Proc.devRef .tc b) := (midStretch_leaves m ρ c b h1).symm
    _ = W9 m ρ c (Proc.devRef .tc b) := (W9_of_ne m ρ c b h2).symm
    _ = W10 m ρ c (Proc.devRef .tc b) := (lastStretch_leaves m ρ c b h3).symm

/-! ## The arguments the middle stretch reads, at the edge launch's exit -/

private theorem exit0_arg10 (c : Dev nD) : W7 m ρ c (Proc.devRef .tc main_arg10) = m ((c : Thread nD τ).loc main_arg10) :=
  (exit0_eq_end m ρ c main_arg10 (by decide) (by decide) (by decide)).trans (W10_main_arg10 m ρ c)
private theorem exit0_arg11 (c : Dev nD) : W7 m ρ c (Proc.devRef .tc main_arg11) = m ((c : Thread nD τ).loc main_arg11) :=
  (exit0_eq_end m ρ c main_arg11 (by decide) (by decide) (by decide)).trans (W10_main_arg11 m ρ c)
private theorem exit0_arg13 (c : Dev nD) : W7 m ρ c (Proc.devRef .tc main_arg13) = m ((c : Thread nD τ).loc main_arg13) :=
  (exit0_eq_end m ρ c main_arg13 (by decide) (by decide) (by decide)).trans (W10_main_arg13 m ρ c)

/-! ## The destination indices, from the first stretch to the edge launch's exit -/

/-- The first stretch cuts row 1 out of the edge list and flattens it. -/
private theorem first_dst (c : Dev nD) :
    W1 m ρ c (Proc.devRef .tc main_v3) = dstIdx (m ((c : Thread nD τ).loc main_arg2)) := by
  show StableHlo.after hostOps0 (W0 m ρ c) (Proc.devRef .tc main_v3) = _
  after_results
  rfl

/-- Nothing between the first stretch and the edge launch's exit writes the destination indices. -/
private theorem exit0_dst (c : Dev nD) :
    W7 m ρ c (Proc.devRef .tc main_v3) = dstIdx (m ((c : Thread nD τ).loc main_arg2)) :=
  calc W7 m ρ c (Proc.devRef .tc main_v3)
    _ = W6 m ρ c (Proc.devRef .tc main_v3) := W7_of_ne m ρ c main_v3 (by decide)
    _ = W5 m ρ c (Proc.devRef .tc main_v3) := by stretch_leaves hostOps0_5
    _ = W4 m ρ c (Proc.devRef .tc main_v3) := by stretch_leaves hostOps0_4
    _ = W3 m ρ c (Proc.devRef .tc main_v3) := by stretch_leaves hostOps0_3
    _ = W2 m ρ c (Proc.devRef .tc main_v3) := by stretch_leaves hostOps0_2
    _ = W1 m ρ c (Proc.devRef .tc main_v3) := by stretch_leaves hostOps0_1
    _ = _ := first_dst m ρ c

/-! ## The node launch's inputs -/

theorem V8_arg0 (c : Dev nD) : V8 m ρ c main_arg0 = (m ((c : Thread nD τ).loc main_arg0)) :=
  calc W8 m ρ c (Proc.devRef .tc main_arg0)
    _ = W9 m ρ c (Proc.devRef .tc main_arg0) :=
        ((W9_arr m ρ c 0).trans (((dat1 (V8 m ρ) c).arrAt_in 0 rfl _).trans (A_eq1 (V8 m ρ) c 0))).symm
    _ = W10 m ρ c (Proc.devRef .tc main_arg0) := (lastStretch_leaves m ρ c main_arg0 (by decide)).symm
    _ = _ := W10_main_arg0 m ρ c
theorem V8_v21 (c : Dev nD) : V8 m ρ c main_v21 = scat128 (dstIdx (m ((c : Thread nD τ).loc main_arg2))) (V7 m ρ c main_v15_0) := by
  show StableHlo.after hostOps1 (W7 m ρ c) (Proc.devRef .tc main_v21) = _
  after_results
  rw [exit0_dst]
  rfl
theorem V8_v22 (c : Dev nD) : V8 m ρ c main_v22 = nbandH (m ((c : Thread nD τ).loc main_arg10)) := by
  show StableHlo.after hostOps1 (W7 m ρ c) (Proc.devRef .tc main_v22) = _
  after_results
  rw [exit0_arg10]
  rfl
theorem V8_v23 (c : Dev nD) : V8 m ρ c main_v23 = nbandM (m ((c : Thread nD τ).loc main_arg10)) := by
  show StableHlo.after hostOps1 (W7 m ρ c) (Proc.devRef .tc main_v23) = _
  after_results
  rw [exit0_arg10]
  rfl
theorem V8_v24 (c : Dev nD) : V8 m ρ c main_v24 = bias2d (m ((c : Thread nD τ).loc main_arg11)) := by
  show StableHlo.after hostOps1 (W7 m ρ c) (Proc.devRef .tc main_v24) = _
  after_results
  rw [exit0_arg11]
  rfl
theorem V8_arg12 (c : Dev nD) : V8 m ρ c main_arg12 = (m ((c : Thread nD τ).loc main_arg12)) :=
  calc W8 m ρ c (Proc.devRef .tc main_arg12)
    _ = W9 m ρ c (Proc.devRef .tc main_arg12) :=
        ((W9_arr m ρ c 5).trans (((dat1 (V8 m ρ) c).arrAt_in 5 rfl _).trans (A_eq1 (V8 m ρ) c 5))).symm
    _ = W10 m ρ c (Proc.devRef .tc main_arg12) := (lastStretch_leaves m ρ c main_arg12 (by decide)).symm
    _ = _ := W10_main_arg12 m ρ c
theorem V8_v25 (c : Dev nD) : V8 m ρ c main_v25 = bias2d (m ((c : Thread nD τ).loc main_arg13)) := by
  show StableHlo.after hostOps1 (W7 m ρ c) (Proc.devRef .tc main_v25) = _
  after_results
  rw [exit0_arg13]
  rfl

/-! ## The results -/

/-- The first result is the node launch's output array. -/
theorem W10_v26 (c : Dev nD) : W10 m ρ c (Proc.devRef .tc main_v26) = (dat1 (V8 m ρ) c).arrAt 7 cfg1.N :=
  (lastStretch_leaves m ρ c main_v26 (by decide)).trans (W9_arr m ρ c 7)

/-- The summed coordinate updates, which the middle stretch writes and the node launch does not touch. -/
private theorem exit1_updates (c : Dev nD) :
    W9 m ρ c (Proc.devRef .tc main_v18) = scat3 (dstIdx (m ((c : Thread nD τ).loc main_arg2))) (V7 m ρ c main_v15_1) := by
  refine (W9_of_ne m ρ c main_v18 (by decide)).trans ?_
  show StableHlo.after hostOps1 (W7 m ρ c) (Proc.devRef .tc main_v18) = _
  after_results
  rw [exit0_dst]
  rfl

/-- The second result is the coordinates plus the summed coordinate updates. -/
theorem W10_v27 (c : Dev nD) :
    W10 m ρ c (Proc.devRef .tc main_v27) = addf (m ((c : Thread nD τ).loc main_arg1)) (scat3 (dstIdx (m ((c : Thread nD τ).loc main_arg2))) (V7 m ρ c main_v15_1)) := by
  have harg : W9 m ρ c (Proc.devRef .tc main_arg1) = m ((c : Thread nD τ).loc main_arg1) :=
    (lastStretch_leaves m ρ c main_arg1 (by decide)).symm.trans (W10_main_arg1 m ρ c)
  show StableHlo.after hostOps2 (W9 m ρ c) (Proc.devRef .tc main_v27) = _
  after_results
  rw [harg, exit1_updates]

end Cert.KernelIdeal.Val

end
-- ==== Proof.KernelValue.lean ====
/-
  What the kernel program returns, as functions of its argument arrays.

  Reading the fold through the program's segments: the edge launch finds the looked-up features, the relative
  positions, the three bands of the first weight matrix and the bias rows, and leaves the specification's message and
  coordinate-update arrays of them; the host then sums both into the destination nodes; the node launch finds the node
  features, the summed messages, the two bands and the bias rows, and leaves the specification's node array — the
  first result; the second result is the coordinates plus the summed updates.
-/
import proofs.«418114_j661424963982_2_alg».proof.Proof.KernelRun
import proofs.«418114_j661424963982_2_alg».proof.Proof.Blocks0
import proofs.«418114_j661424963982_2_alg».proof.Proof.Blocks1
import proofs.«418114_j661424963982_2_alg».proof.Proof.KHost0
import proofs.«418114_j661424963982_2_alg».proof.Proof.KHost1
import proofs.«418114_j661424963982_2_alg».proof.Proof.HostTerms
import proofs.«418114_j661424963982_2_alg».proof.Proof.Spec

set_option maxRecDepth 16384

noncomputable section

namespace Cert.KernelIdeal.Val

open Cert.KernelIdeal Cert.KernelIdeal.Gen Idealize.ShloMosaic Idealize.ShloMosaic.TcCoe Idealize.SL.Sem

/-- The messages, from the argument arrays. -/
def msgK (a0 : FVec Ideal S50000x128 .f32) (a1 : FVec Ideal S50000x3 .f32) (a2 : IVec S2x640000 32)
    (a3 : FVec Ideal S257x128 .f32) (a4 : FVec Ideal S128 .f32) (a5 : FVec Ideal S128x128 .f32) (a6 : FVec Ideal S128 .f32) :
    FVec Ideal S640000x128 .f32 :=
  Cert.Egnn.edgeM (R := 640000) (take128 a0 (srcIdx a2)) (take128 a0 (dstIdx a2)) (relPos a1 a2)
    (bandA a3) (bandB a3) (bandQ a3) (bias2d a4) a5 (bias2d a6)

/-- The coordinate updates, from the argument arrays. -/
def coordK (a0 : FVec Ideal S50000x128 .f32) (a1 : FVec Ideal S50000x3 .f32) (a2 : IVec S2x640000 32)
    (a3 : FVec Ideal S257x128 .f32) (a4 : FVec Ideal S128 .f32) (a5 : FVec Ideal S128x128 .f32) (a6 : FVec Ideal S128 .f32)
    (a7 : FVec Ideal S128x128 .f32) (a8 : FVec Ideal S128 .f32) (a9 : FVec Ideal S128x1 .f32) : FVec Ideal S640000x3 .f32 :=
  Cert.Egnn.edgeC (R := 640000) (take128 a0 (srcIdx a2)) (take128 a0 (dstIdx a2)) (relPos a1 a2)
    (bandA a3) (bandB a3) (bandQ a3) (bias2d a4) a5 (bias2d a6) a7 (bias2d a8) a9

/-- The first result: the new node features. -/
def houtK (a0 : FVec Ideal S50000x128 .f32) (a1 : FVec Ideal S50000x3 .f32) (a2 : IVec S2x640000 32)
    (a3 : FVec Ideal S257x128 .f32) (a4 : FVec Ideal S128 .f32) (a5 : FVec Ideal S128x128 .f32) (a6 : FVec Ideal S128 .f32)
    (a10 : FVec Ideal S256x128 .f32) (a11 : FVec Ideal S128 .f32) (a12 : FVec Ideal S128x128 .f32) (a13 : FVec Ideal S128 .f32) :
    FVec Ideal S50000x128 .f32 :=
  Cert.Egnn.nodeH (R := 50000) a0 (scat128 (dstIdx a2) (msgK a0 a1 a2 a3 a4 a5 a6)) (nbandH a10) (nbandM a10) (bias2d a11) a12 (bias2d a13)

/-- The second result: the new coordinates. -/
def xoutK (a0 : FVec Ideal S50000x128 .f32) (a1 : FVec Ideal S50000x3 .f32) (a2 : IVec S2x640000 32)
    (a3 : FVec Ideal S257x128 .f32) (a4 : FVec Ideal S128 .f32) (a5 : FVec Ideal S128x128 .f32) (a6 : FVec Ideal S128 .f32)
    (a7 : FVec Ideal S128x128 .f32) (a8 : FVec Ideal S128 .f32) (a9 : FVec Ideal S128x1 .f32) : FVec Ideal S50000x3 .f32 :=
  addf a1 (scat3 (dstIdx a2) (coordK a0 a1 a2 a3 a4 a5 a6 a7 a8 a9))

variable (m : (ℓ : Loc nD τ sig) → Buf (Elt Ideal) ℓ) (ρ : Dev nD → PrngReg)

/-- What the edge launch leaves in its message array. -/
theorem V7_msg (c : Dev nD) : V7 m ρ c main_v15_0 = msgK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W7_arr m ρ c 12).trans ((arr_msg (V6 m ρ) c).trans ?_)
  rw [V6_v4, V6_v5, V6_v8, V6_v9, V6_v10, V6_v11, V6_v12, V6_arg5, V6_v13]
  rfl

/-- What the edge launch leaves in its coordinate-update array. -/
theorem V7_coord (c : Dev nD) : V7 m ρ c main_v15_1 = coordK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 13).trans ((arr_coord (V6 m ρ) c).trans ?_)
  rw [V6_v4, V6_v5, V6_v8, V6_v9, V6_v10, V6_v11, V6_v12, V6_arg5, V6_v13, V6_arg7, V6_v14, V6_arg9]
  rfl

/-- The first result array at the end of the program. -/
theorem W10_hout (c : Dev nD) :
    W10 m ρ c (Proc.devRef .tc main_v26) = houtK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) (m ((c : Thread nD τ).loc main_arg13)) := by
  refine (W10_v26 m ρ c).trans ((arr_node (V8 m ρ) c).trans ?_)
  rw [V8_arg0, V8_v21, V8_v22, V8_v23, V8_v24, V8_arg12, V8_v25, V7_msg]
  rfl

/-- The second result array at the end of the program. -/
theorem W10_xout (c : Dev nD) :
    W10 m ρ c (Proc.devRef .tc main_v27) = xoutK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W10_v27, V7_coord]
  rfl

end Cert.KernelIdeal.Val

end
-- ==== Proof.TakePre.lean ====
/-
  Reading the precondition, and what it does to the lookups.

  The precondition's last conjunct says every entry of the edge list is a node number: at least 0 and below 50000 as a
  signed 32-bit word, which is the same as its unsigned value being below 50000. For such an index vector the "move a
  negative index up" step changes nothing, the "inside the table" test is true for every edge, and so a lookup with a
  fill outside the table is the plain table read.
-/
import proofs.«418114_j661424963982_2_alg».proof.Proof.HostTerms
import proofs.«418114_j661424963982_2_alg».proof.Pre_finite_inputs
import proofs.«418114_j661424963982_2_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.Val

open Cert.KernelIdeal Cert.KernelIdeal.Gen Idealize.ShloMosaic Idealize.ShloMosaic.ValueIdx

variable {F : FTy → Type} [FloatOps F]

/-- Every entry of the edge list is a node number. -/
def EdgesInRange (e : IVec S2x640000 32) : Prop := ∀ i : S2x640000.Idx, (e i).toNat < 50000

/-- Every entry of an index vector is a node number. -/
def IdxInRange (i : IVec S640000 32) : Prop := ∀ k : S640000.Idx, (i k).toNat < 50000

/-! ## Words

A 32-bit word that is at least 0 and below 50000 when read signed has its sign bit clear, so its signed and unsigned
readings agree and the unsigned one is below 50000. Conversely a word whose unsigned value is below 50000 is not
negative, is at least 0 and is at most 49999 when read signed. -/

/-- Signed range to unsigned bound. -/
private theorem toNat_lt_of_signed_range (w : BitVec 32) (h0 : IntOp.cmpi .sge w 0#32 = 1#1)
    (h1 : IntOp.cmpi .slt w 50000#32 = 1#1) : w.toNat < 50000 := by
  have e0 : (0#32 : BitVec 32).toInt = 0 := by decide
  have e1 : (50000#32 : BitVec 32).toInt = 50000 := by decide
  have hw := BitVec.toInt_eq_toNat_cond w
  simp only [IntOp.cmpi, StableHlo.Predicate.ofBool_eq_one_iff, BitVec.sle, BitVec.slt, decide_eq_true_eq, e0, e1] at h0 h1
  split at hw <;> omega

/-- A node number is not negative. -/
private theorem slt_zero_of_lt (w : BitVec 32) (hw : w.toNat < 50000) : IntOp.cmpi .slt w 0#32 = 0#1 := by
  refine eq_zero_of_ne_one fun e => ?_
  have := (StableHlo.Predicate.slt_iff_toNat (a := w) (b := 0#32) (by omega) (by decide)).1 e
  exact absurd this (Nat.not_lt_zero _)

/-- A node number passes the "inside the table" test: at least 0 and at most 49999. -/
private theorem inside_of_lt (w : BitVec 32) (hw : w.toNat < 50000) :
    IntOp.andi (IntOp.cmpi .sge w 0#32) (IntOp.cmpi .sle w 49999#32) = 1#1 := by
  have e9 : (49999#32 : BitVec 32).toNat = 49999 := rfl
  refine IntOp.andi_eq_one.2 ⟨(StableHlo.Predicate.sge_iff_toNat (by omega) (by decide)).2 (Nat.zero_le _),
    (StableHlo.Predicate.sle_iff_toNat (by omega) (by decide)).2 ?_⟩
  rw [e9]; omega

/-! ## A conjunction of ones is one -/

/-- A left fold by `and` from 1 over words that are all 1 is 1. -/
private theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_of_all_one f hf l

/-- A reduction by `and` from 1 of an array of ones is 1 at every result index. -/
private theorem reduce_andi_of_all_one {s t u : Shape} {axes : List (Fin s.rank)} (x : s.Idx → BitVec 1)
    (init : u.Idx → BitVec 1) (h : s.ReducesTo axes t) (hu : 0 < u.numel) (hx : ∀ i, x i = 1#1)
    (hi : init (Shape.Idx.first hu) = 1#1) (j : t.Idx) : Host.reduce IntOp.andi x init h hu j = 1#1 := by
  rw [Host.reduce_eq_foldl, hi]
  exact foldl_andi_of_all_one x hx _

/-- A select whose condition is 1 everywhere is its first operand. -/
private theorem select_of_all_one {α : Type} {s : Shape} (c : IVec s 1) (hc : ∀ j, c j = 1#1) (a b : s.Idx → α) :
    select c a b = a := by
  funext j
  rw [select_apply, hc j, select_one]

/-! ## The precondition read back -/

/-- The precondition, all ones, says the edge list holds node numbers. -/
theorem edgesInRange_of_pre (a0 : FVec F S50000x128 .f32) (a1 : FVec F S50000x3 .f32) (a2 : IVec S2x640000 32)
    (a3 : FVec F S257x128 .f32) (a4 : FVec F S128 .f32) (a5 : FVec F S128x128 .f32) (a6 : FVec F S128 .f32)
    (a7 : FVec F S128x128 .f32) (a8 : FVec F S128 .f32) (a9 : FVec F S128x1 .f32) (a10 : FVec F S256x128 .f32)
    (a11 : FVec F S128 .f32) (a12 : FVec F S128x128 .f32) (a13 : FVec F S128 .f32)
    (h : Cert.Pre_finite_inputs.fn (F := F) a0 a1 a2 a3 a4 a5 a6 a7 a8 a9 a10 a11 a12 a13 = fun _ => 1#1) :
    EdgesInRange a2 := by
  intro i
  haveI : Subsingleton Cert.Pre_finite_inputs.S_.Idx := ⟨fun a b => funext fun d => d.elim0⟩
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- the last conjunct: the conjunction over all edges of "at least 0 and below 50000"
  have eall := (IntOp.andi_eq_one.1 e).2
  have ei := Host.reduce_andi_all _ _ _ _ _ eall i
  obtain ⟨h0, h1⟩ := IntOp.andi_eq_one.1 ei
  exact toNat_lt_of_signed_range (a2 i) h0 h1

/-! ## The two rows of the edge list, and an index vector as a column -/

theorem srcIdx_inRange (e : IVec S2x640000 32) (h : EdgesInRange e) : IdxInRange (srcIdx e) := by
  intro k
  unfold srcIdx shapeCast extractStridedSlice
  exact h _

theorem dstIdx_inRange (e : IVec S2x640000 32) (h : EdgesInRange e) : IdxInRange (dstIdx e) := by
  intro k
  unfold dstIdx shapeCast extractStridedSlice
  exact h _

/-- Every entry of the one-column array of node numbers is a node number. -/
private theorem colIdx_lt (i : IVec S640000 32) (h : IdxInRange i) (p : S640000x1.Idx) : (colIdx i p).toNat < 50000 := by
  unfold colIdx broadcastInDim
  exact h _

/-! ## Node numbers are not moved, and are inside the table -/

/-- Node numbers are not moved. -/
theorem wrapIdx_eq (i : IVec S640000 32) (h : IdxInRange i) : wrapIdx i = i := by
  funext k
  unfold wrapIdx
  rw [select_apply]
  have hc : cmpi .slt i (broadcastInDim S640000 ![] bcast_S_S640000 (constantI S_ 32 0#32)) k = 0#1 :=
    slt_zero_of_lt (i k) (h k)
  rw [hc, select_zero]

/-- At node numbers the "inside the table" test is true for every edge. -/
private theorem inTable_colIdx (i : IVec S640000 32) (h : IdxInRange i) : inTable (colIdx i) = fun _ => 1#1 := by
  funext k
  unfold inTable
  refine reduce_andi_of_all_one _ _ _ _ (fun p => ?_) rfl k
  exact inside_of_lt (colIdx i p) (colIdx_lt i h p)

/-- A lookup at node numbers is the plain read of 128-wide rows. -/
theorem take128_eq (x : FVec F S50000x128 .f32) (i : IVec S640000 32) (h : IdxInRange i) :
    take128 x i = Host.gather gather_S50000x128_S640000x1_S640000x128_1_0_n_n_0_1_1128 x (colIdx i) := by
  unfold take128
  rw [wrapIdx_eq i h, inTable_colIdx i h]
  exact select_of_all_one _ (fun _ => rfl) _ _

/-- A lookup at node numbers is the plain read of 3-wide rows. -/
theorem take3_eq (x : FVec F S50000x3 .f32) (i : IVec S640000 32) (h : IdxInRange i) :
    take3 x i = Host.gather gather_S50000x3_S640000x1_S640000x3_1_0_n_n_0_1_13 x (colIdx i) := by
  unfold take3
  rw [wrapIdx_eq i h, inTable_colIdx i h]
  exact select_of_all_one _ (fun _ => rfl) _ _

end Cert.KernelIdeal.Val

end
-- ==== Proof.Bands.lean ====
/-
  The cut weight matrices and the bias rows, read at an entry: a band's entry (k, j) is the matrix's entry
  (offset + k, j), and a bias row's entry (0, j) is the bias vector's entry j.
-/
import proofs.«418114_j661424963982_2_alg».proof.Proof.HostTerms
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.ValueIdx

variable {F : FTy → Type} [FloatOps F]

/- Each band is a cut along the rows with zero column offset, so its entry (k, j) is the matrix's entry at row
   offset + k and column j; the row's bound is the only thing to supply. -/

theorem bandA_apply (w : FVec F S257x128 .f32) (k j : Fin 128) :
    bandA w (ix2 k j) = w (ix2 (⟨k.val, Nat.lt_trans k.isLt (by decide)⟩ : Fin 257) j) := by
  unfold bandA
  exact slice2_axis0_apply 0 w _ k j _ (Nat.zero_add _).symm
theorem bandB_apply (w : FVec F S257x128 .f32) (k j : Fin 128) :
    bandB w (ix2 k j) = w (ix2 (⟨128 + k.val, by have := k.isLt; omega⟩ : Fin 257) j) := by
  unfold bandB
  exact slice2_axis0_apply 128 w _ k j _ rfl
theorem bandQ_apply (w : FVec F S257x128 .f32) (j : Fin 128) :
    bandQ w (ix2 (0 : Fin 1) j) = w (ix2 (⟨256, by decide⟩ : Fin 257) j) := by
  unfold bandQ
  exact slice2_axis0_apply 256 w _ (0 : Fin 1) j _ rfl
/- A vector of length 128 viewed as one row keeps its row-major order: entry (0, j) is entry j. -/
theorem bias2d_apply (b : FVec F S128 .f32) (j : Fin 128) :
    bias2d b (ix2 (0 : Fin 1) j) = b (ix1 j) := by
  unfold bias2d
  exact shapeCast_a_1a_apply b _ (0 : Fin 1) j
theorem nbandH_apply (w : FVec F S256x128 .f32) (k j : Fin 128) :
    nbandH w (ix2 k j) = w (ix2 (⟨k.val, Nat.lt_trans k.isLt (by decide)⟩ : Fin 256) j) := by
  unfold nbandH
  exact slice2_axis0_apply 0 w _ k j _ (Nat.zero_add _).symm
theorem nbandM_apply (w : FVec F S256x128 .f32) (k j : Fin 128) :
    nbandM w (ix2 k j) = w (ix2 (⟨128 + k.val, by have := k.isLt; omega⟩ : Fin 256) j) := by
  unfold nbandM
  exact slice2_axis0_apply 128 w _ k j _ rfl

end Cert.KernelIdeal.Val

end
-- ==== Proof.RefEdge.lean ====
/-
  The reference's per-edge stages are the specification's edge layer of the looked-up rows.

  The reference joins the two looked-up feature rows and the squared distance into 257 numbers and multiplies by the
  whole 257 × 128 matrix; a sum over 257 terms is the sum over the first 128, plus the sum over the next 128, plus the
  last term, and addition of extended reals is associative, so that is the specification's
  (a·Ws + b·Wd) + (|r|²·wq + bias) once the three bands and the bias row are named by their entries. The gate is
  written out on the host as z · (1 / (1 + e^(-z))), which is z times the logistic function. The rest is the same
  sums of products, read one operation at a time.
-/
import proofs.«418114_j661424963982_2_alg».proof.Proof.Gen.ReferenceIdeal.Read
import proofs.«418114_j661424963982_2_alg».proof.Proof.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin

noncomputable section

open scoped BigOperators

namespace Cert.ReferenceIdeal.RefVal

open Cert.ReferenceIdeal Cert.ReferenceIdeal.Gen Cert.ReferenceIdeal.Read Idealize.ShloMosaic Idealize.ShloMosaic.ValueIdx

/-! ## Three facts that mention no program -/

/-- A sum of 257 terms is the sum of its first 128, plus the sum of its next 128, plus its last term. -/
private theorem sum_257_bands {M : Type*} [AddCommMonoid M] (f : Fin 257 → M) :
    ∑ k : Fin 257, f k = ((∑ k : Fin 128, f ⟨k.val, Nat.lt_trans k.isLt (by decide)⟩)
      + (∑ k : Fin 128, f ⟨128 + k.val, by have := k.isLt; omega⟩)) + f ⟨256, by decide⟩ := by
  refine (Fin.sum_univ_castSucc (n := 256) f).trans ?_
  refine congrArg₂ (· + ·) ?_ rfl
  exact Fin.sum_univ_add (a := 128) (b := 128) (fun i : Fin (128 + 128) => f (Fin.castSucc i))

/-- The word 0x3F800000 denotes the number one: exponent field 127, empty significand. -/
private theorem one_word : Ideal.ofBits .f32 0x3F800000#32 = 1 := by
  simp [Ideal.ofBits, Ideal.ieee, -EReal.coe_mul]; norm_num

/-- z · (1 / (1 + e^(-z))) is z times the logistic function of z, which is the gate of z. -/
private theorem gate_written_out (z : Ideal .f32) :
    FloatOps.mulf z (FloatOps.hostDivf (FloatOps.ofBits (F := Ideal) .f32 0x3F800000#32)
      (FloatOps.addf (FloatOps.ofBits (F := Ideal) .f32 0x3F800000#32) (FloatOps.hostUnary .exp (FloatOps.hostNegf z))))
      = Cert.Egnn.gate z := by
  simp only [Ideal.mulf_def, Ideal.hostDivf_def, Ideal.addf_def, Ideal.hostUnary_exp_def, Ideal.hostNegf_def,
    Ideal.negf_def, Ideal.ofBits_def, one_word]
  rfl

/-! ## The 257 joined numbers of an edge, band by band -/

/-- Columns 0..127 of the joined array are the first piece's columns. -/
private theorem joined_first_band {α : Type} (A B : S640000x128.Idx → α) (C : S640000x1.Idx → α)
    (h : Shape.Concatenates [S640000x128, S640000x128, S640000x1] S640000x257 1) (e : Fin 640000) (k : Fin 128) :
    concatenate S640000x257 1 [⟨S640000x128, A⟩, ⟨S640000x128, B⟩, ⟨S640000x1, C⟩] h
        (ix2 e (⟨k.val, Nat.lt_trans k.isLt (by decide)⟩ : Fin 257)) = A (ix2 e k) := by
  refine concatenate_apply_piece 1 [⟨S640000x128, A⟩, ⟨S640000x128, B⟩, ⟨S640000x1, C⟩] h _ 0 (show 0 < 3 by decide)
    S640000x128 A rfl rfl 0 rfl (ix2 e k) ?_ ?_
  · intro b hb
    match b with
    | ⟨0, _⟩ => rfl
    | ⟨1, _⟩ => exact absurd rfl hb
  · exact Nat.zero_add _

/-- Columns 128..255 of the joined array are the second piece's columns, 128 further on. -/
private theorem joined_second_band {α : Type} (A B : S640000x128.Idx → α) (C : S640000x1.Idx → α)
    (h : Shape.Concatenates [S640000x128, S640000x128, S640000x1] S640000x257 1) (e : Fin 640000) (k : Fin 128) :
    concatenate S640000x257 1 [⟨S640000x128, A⟩, ⟨S640000x128, B⟩, ⟨S640000x1, C⟩] h
        (ix2 e (⟨128 + k.val, by have := k.isLt; omega⟩ : Fin 257)) = B (ix2 e k) := by
  refine concatenate_apply_piece 1 [⟨S640000x128, A⟩, ⟨S640000x128, B⟩, ⟨S640000x1, C⟩] h _ 1 (show 1 < 3 by decide)
    S640000x128 B rfl rfl 128 rfl (ix2 e k) ?_ ?_
  · intro b hb
    match b with
    | ⟨0, _⟩ => rfl
    | ⟨1, _⟩ => exact absurd rfl hb
  · rfl

/-- Column 256 of the joined array is the third piece's one column. -/
private theorem joined_last_column {α : Type} (A B : S640000x128.Idx → α) (C : S640000x1.Idx → α)
    (h : Shape.Concatenates [S640000x128, S640000x128, S640000x1] S640000x257 1) (e : Fin 640000) :
    concatenate S640000x257 1 [⟨S640000x128, A⟩, ⟨S640000x128, B⟩, ⟨S640000x1, C⟩] h
        (ix2 e (⟨256, by decide⟩ : Fin 257)) = C (ix2 e (0 : Fin 1)) := by
  refine concatenate_apply_piece 1 [⟨S640000x128, A⟩, ⟨S640000x128, B⟩, ⟨S640000x1, C⟩] h _ 2 (show 2 < 3 by decide)
    S640000x1 C rfl rfl 256 rfl (ix2 e (0 : Fin 1)) ?_ ?_
  · intro b hb
    match b with
    | ⟨0, _⟩ => rfl
    | ⟨1, _⟩ => exact absurd rfl hb
  · rfl

/-! ## The stages, each at an index -/

/-- The squared distance of edge e: the sum over the three coordinates of the relative position's square. -/
private theorem sqdist_at (x1 : FVec Ideal S50000x3 .f32) (x2 : IVec S2x640000 32) (e : Fin 640000) :
    val_main_v21 (F := Ideal) x1 x2 (ix2 e (0 : Fin 1))
      = ∑ c : Fin 3, val_main_v18 (F := Ideal) x1 x2 (ix2 e c) * val_main_v18 (F := Ideal) x1 x2 (ix2 e c) := by
  have e21 : idx_main_v21 (ix2 e (0 : Fin 1)) = ix1 e := funext fun a => by match a with | ⟨0, _⟩ => rfl
  have e20 : ∀ c : Fin 3, idx_main_v20 (ix1 e) c = ix2 e c := fun c => funext fun a => by match a with | ⟨0, _⟩ => rfl | ⟨1, _⟩ => rfl
  rw [val_main_v21_apply, e21, val_main_v20_apply, val_main_cst_apply, Ideal.ofBits_def, Ideal.ofBits_zero_f32, zero_add]
  simp only [e20, val_main_v19_apply, Ideal.mulf_def]

/-- The joined array at a column of its first band. -/
private theorem joined_at_first (x0 : FVec Ideal S50000x128 .f32) (x1 : FVec Ideal S50000x3 .f32) (x2 : IVec S2x640000 32)
    (e : Fin 640000) (k : Fin 128) :
    val_main_v36 (F := Ideal) x0 x1 x2 (ix2 e (⟨k.val, Nat.lt_trans k.isLt (by decide)⟩ : Fin 257))
      = val_main_v28 (F := Ideal) x0 x2 (ix2 e k) := by
  unfold val_main_v36
  exact joined_first_band _ _ _ _ e k

/-- The joined array at a column of its second band. -/
private theorem joined_at_second (x0 : FVec Ideal S50000x128 .f32) (x1 : FVec Ideal S50000x3 .f32) (x2 : IVec S2x640000 32)
    (e : Fin 640000) (k : Fin 128) :
    val_main_v36 (F := Ideal) x0 x1 x2 (ix2 e (⟨128 + k.val, by have := k.isLt; omega⟩ : Fin 257))
      = val_main_v35 (F := Ideal) x0 x2 (ix2 e k) := by
  unfold val_main_v36
  exact joined_second_band _ _ _ _ e k

/-- The joined array at its last column. -/
private theorem joined_at_last (x0 : FVec Ideal S50000x128 .f32) (x1 : FVec Ideal S50000x3 .f32) (x2 : IVec S2x640000 32)
    (e : Fin 640000) :
    val_main_v36 (F := Ideal) x0 x1 x2 (ix2 e (⟨256, by decide⟩ : Fin 257))
      = val_main_v21 (F := Ideal) x1 x2 (ix2 e (0 : Fin 1)) := by
  unfold val_main_v36
  exact joined_last_column _ _ _ _ e

/-- The first layer before its gate: the product with the whole 257-row matrix plus the bias, cut into the three bands. -/
private theorem pre_at (x0 : FVec Ideal S50000x128 .f32) (x1 : FVec Ideal S50000x3 .f32) (x2 : IVec S2x640000 32)
    (x3 : FVec Ideal S257x128 .f32) (x4 : FVec Ideal S128 .f32)
    (Ws Wd : Cert.Egnn.Mat 128 128) (wq bq : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j)) (e : Fin 640000) (j : Fin 128) :
    val_main_v40 (F := Ideal) x0 x1 x2 x3 x4 (ix2 e j)
      = Cert.Egnn.edgePre (Cert.Egnn.row (val_main_v28 (F := Ideal) x0 x2) e) (Cert.Egnn.row (val_main_v35 (F := Ideal) x0 x2) e)
          (Cert.Egnn.row (val_main_v18 (F := Ideal) x1 x2) e) Ws Wd wq bq j := by
  have el : ∀ k : Fin 257, lidx_main_v37 (ix2 e j) k = ix2 e k := fun k => funext fun a => by match a with | ⟨0, _⟩ => rfl | ⟨1, _⟩ => rfl
  have er : ∀ k : Fin 257, ridx_main_v37 (ix2 e j) k = ix2 k j := fun k => funext fun a => by match a with | ⟨0, _⟩ => rfl | ⟨1, _⟩ => rfl
  have e39 : idx_main_v39 (ix2 e j) = ix2 (0 : Fin 1) j := funext fun a => by match a with | ⟨0, _⟩ => rfl | ⟨1, _⟩ => rfl
  have e38 : idx_main_v38 (ix2 (0 : Fin 1) j) = ix1 j := funext fun a => by match a with | ⟨0, _⟩ => rfl
  rw [val_main_v40_apply, val_main_v37_apply, val_main_v39_apply, e39, val_main_v38_apply, e38, Ideal.addf_def]
  simp only [el, er]
  rw [sum_257_bands]
  simp only [joined_at_first, joined_at_second, joined_at_last, sqdist_at]
  unfold Cert.Egnn.edgePre Cert.Egnn.row
  simp only [hWs, hWd, hwq, hbq]
  rw [add_assoc]

/-- The first layer after its gate. -/
private theorem hidden_at (x0 : FVec Ideal S50000x128 .f32) (x1 : FVec Ideal S50000x3 .f32) (x2 : IVec S2x640000 32)
    (x3 : FVec Ideal S257x128 .f32) (x4 : FVec Ideal S128 .f32)
    (Ws Wd : Cert.Egnn.Mat 128 128) (wq bq : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j)) (e : Fin 640000) (j : Fin 128) :
    val_main_v41 (F := Ideal) x0 x1 x2 x3 x4 (ix2 e j)
      = Cert.Egnn.gate (Cert.Egnn.edgePre (Cert.Egnn.row (val_main_v28 (F := Ideal) x0 x2) e) (Cert.Egnn.row (val_main_v35 (F := Ideal) x0 x2) e)
          (Cert.Egnn.row (val_main_v18 (F := Ideal) x1 x2) e) Ws Wd wq bq j) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, gate_written_out,
    pre_at x0 x1 x2 x3 x4 Ws Wd wq bq hWs hWd hwq hbq]

/-- The message of edge e at column j. -/
private theorem msg_at (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (Ws Wd : Cert.Egnn.Mat 128 128) (wq bq : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j)) (b2 : Cert.Egnn.Mat 1 128) (hb2 : ∀ j : Fin 128, b2 (ix2 (0 : Fin 1) j) = x6 (ix1 j))
    (e : Fin 640000) (j : Fin 128) :
    val_main_v46 (F := Ideal) x0 x1 x2 x3 x4 x5 x6 (ix2 e j)
      = Cert.Egnn.edgeMsg (Cert.Egnn.row (val_main_v28 (F := Ideal) x0 x2) e) (Cert.Egnn.row (val_main_v35 (F := Ideal) x0 x2) e)
          (Cert.Egnn.row (val_main_v18 (F := Ideal) x1 x2) e) Ws Wd wq bq x5 b2 j := by
  have el : ∀ k : Fin 128, lidx_main_v42 (ix2 e j) k = ix2 e k := fun k => funext fun a => by match a with | ⟨0, _⟩ => rfl | ⟨1, _⟩ => rfl
  have er : ∀ k : Fin 128, ridx_main_v42 (ix2 e j) k = ix2 k j := fun k => funext fun a => by match a with | ⟨0, _⟩ => rfl | ⟨1, _⟩ => rfl
  have e44 : idx_main_v44 (ix2 e j) = ix2 (0 : Fin 1) j := funext fun a => by match a with | ⟨0, _⟩ => rfl | ⟨1, _⟩ => rfl
  have e43 : idx_main_v43 (ix2 (0 : Fin 1) j) = ix1 j := funext fun a => by match a with | ⟨0, _⟩ => rfl
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, gate_written_out,
    val_main_v45_apply, val_main_v42_apply, val_main_v44_apply, e44, val_main_v43_apply, e43, Ideal.addf_def]
  simp only [el, er, hidden_at x0 x1 x2 x3 x4 Ws Wd wq bq hWs hWd hwq hbq]
  unfold Cert.Egnn.edgeMsg
  rw [hb2]

/-- The reference's message array is the specification's, of its own looked-up rows and relative positions. -/
theorem ref_msg (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (Ws Wd : Cert.Egnn.Mat 128 128) (wq bq b2 : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j))
    (hb2 : ∀ j : Fin 128, b2 (ix2 (0 : Fin 1) j) = x6 (ix1 j)) :
    val_main_v46 (F := Ideal) x0 x1 x2 x3 x4 x5 x6
      = Cert.Egnn.edgeM (R := 640000) (val_main_v28 (F := Ideal) x0 x2) (val_main_v35 (F := Ideal) x0 x2)
          (val_main_v18 (F := Ideal) x1 x2) Ws Wd wq bq x5 b2 := by
  funext i
  obtain ⟨e, j, rfl⟩ : ∃ (e : Fin 640000) (j : Fin 128), i = ix2 e j := ⟨i 0, i 1, eq_ix2 i⟩
  rw [msg_at x0 x1 x2 x3 x4 x5 x6 Ws Wd wq bq hWs hWd hwq hbq b2 hb2]
  rfl

/-- The third gated layer of edge e at column k: the message times the coordinate layer's first matrix, plus its bias,
    through the gate. -/
private theorem coordHidden_at (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (x7 : FVec Ideal S128x128 .f32) (x8 : FVec Ideal S128 .f32)
    (Ws Wd : Cert.Egnn.Mat 128 128) (wq bq : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j)) (b2 : Cert.Egnn.Mat 1 128) (hb2 : ∀ j : Fin 128, b2 (ix2 (0 : Fin 1) j) = x6 (ix1 j))
    (bc1 : Cert.Egnn.Mat 1 128) (hbc1 : ∀ j : Fin 128, bc1 (ix2 (0 : Fin 1) j) = x8 (ix1 j))
    (e : Fin 640000) (k : Fin 128) :
    val_main_v51 (F := Ideal) x0 x1 x2 x3 x4 x5 x6 x7 x8 (ix2 e k)
      = Cert.Egnn.gate ((∑ l : Fin 128, Cert.Egnn.edgeMsg (Cert.Egnn.row (val_main_v28 (F := Ideal) x0 x2) e) (Cert.Egnn.row (val_main_v35 (F := Ideal) x0 x2) e)
          (Cert.Egnn.row (val_main_v18 (F := Ideal) x1 x2) e) Ws Wd wq bq x5 b2 l * x7 (ix2 l k)) + bc1 (ix2 (0 : Fin 1) k)) := by
  have el : ∀ l : Fin 128, lidx_main_v47 (ix2 e k) l = ix2 e l := fun l => funext fun a => by match a with | ⟨0, _⟩ => rfl | ⟨1, _⟩ => rfl
  have er : ∀ l : Fin 128, ridx_main_v47 (ix2 e k) l = ix2 l k := fun l => funext fun a => by match a with | ⟨0, _⟩ => rfl | ⟨1, _⟩ => rfl
  have e49 : idx_main_v49 (ix2 e k) = ix2 (0 : Fin 1) k := funext fun a => by match a with | ⟨0, _⟩ => rfl | ⟨1, _⟩ => rfl
  have e48 : idx_main_v48 (ix2 (0 : Fin 1) k) = ix1 k := funext fun a => by match a with | ⟨0, _⟩ => rfl
  rw [val_main_v51_apply, val_main_call2_v5_apply, val_main_call2_v4_apply, val_main_call2_cst_0_apply,
    val_main_call2_v3_apply, val_main_call2_v2_apply, val_main_call2_cst_apply, val_main_call2_v1_apply,
    val_main_call2_v0_apply, gate_written_out,
    val_main_v50_apply, val_main_v47_apply, val_main_v49_apply, e49, val_main_v48_apply, e48, Ideal.addf_def]
  simp only [el, er, msg_at x0 x1 x2 x3 x4 x5 x6 Ws Wd wq bq hWs hWd hwq hbq b2 hb2]
  rw [hbc1]

/-- The scalar of edge e: the third gated layer times the one weight column. -/
private theorem coef_at (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (x7 : FVec Ideal S128x128 .f32) (x8 : FVec Ideal S128 .f32) (x9 : FVec Ideal S128x1 .f32)
    (Ws Wd : Cert.Egnn.Mat 128 128) (wq bq : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j)) (b2 : Cert.Egnn.Mat 1 128) (hb2 : ∀ j : Fin 128, b2 (ix2 (0 : Fin 1) j) = x6 (ix1 j))
    (bc1 : Cert.Egnn.Mat 1 128) (hbc1 : ∀ j : Fin 128, bc1 (ix2 (0 : Fin 1) j) = x8 (ix1 j))
    (e : Fin 640000) :
    val_main_v52 (F := Ideal) x0 x1 x2 x3 x4 x5 x6 x7 x8 x9 (ix2 e (0 : Fin 1))
      = Cert.Egnn.edgeCoef (Cert.Egnn.row (val_main_v28 (F := Ideal) x0 x2) e) (Cert.Egnn.row (val_main_v35 (F := Ideal) x0 x2) e)
          (Cert.Egnn.row (val_main_v18 (F := Ideal) x1 x2) e) Ws Wd wq bq x5 b2 x7 bc1 x9 := by
  have el : ∀ k : Fin 128, lidx_main_v52 (ix2 e (0 : Fin 1)) k = ix2 e k := fun k => funext fun a => by match a with | ⟨0, _⟩ => rfl | ⟨1, _⟩ => rfl
  have er : ∀ k : Fin 128, ridx_main_v52 (ix2 e (0 : Fin 1)) k = ix2 k (0 : Fin 1) := fun k => funext fun a => by match a with | ⟨0, _⟩ => rfl | ⟨1, _⟩ => rfl
  rw [val_main_v52_apply]
  simp only [el, er, coordHidden_at x0 x1 x2 x3 x4 x5 x6 x7 x8 Ws Wd wq bq hWs hWd hwq hbq b2 hb2 bc1 hbc1]
  rfl

/-- The reference's coordinate-update array is the specification's. -/
theorem ref_coord (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (x7 : FVec Ideal S128x128 .f32) (x8 : FVec Ideal S128 .f32) (x9 : FVec Ideal S128x1 .f32)
    (Ws Wd : Cert.Egnn.Mat 128 128) (wq bq b2 : Cert.Egnn.Mat 1 128)
    (hWs : ∀ k j : Fin 128, Ws (ix2 k j) = x3 (ix2 (⟨k.val, Nat.lt_trans k.isLt (by decide)⟩ : Fin 257) j))
    (hWd : ∀ k j : Fin 128, Wd (ix2 k j) = x3 (ix2 (⟨128 + k.val, by have := k.isLt; omega⟩ : Fin 257) j))
    (hwq : ∀ j : Fin 128, wq (ix2 (0 : Fin 1) j) = x3 (ix2 (⟨256, by decide⟩ : Fin 257) j))
    (hbq : ∀ j : Fin 128, bq (ix2 (0 : Fin 1) j) = x4 (ix1 j))
    (hb2 : ∀ j : Fin 128, b2 (ix2 (0 : Fin 1) j) = x6 (ix1 j))
    (bc1 : Cert.Egnn.Mat 1 128) (hbc1 : ∀ j : Fin 128, bc1 (ix2 (0 : Fin 1) j) = x8 (ix1 j)) :
    val_main_v54 (F := Ideal) x0 x1 x2 x3 x4 x5 x6 x7 x8 x9
      = Cert.Egnn.edgeC (R := 640000) (val_main_v28 (F := Ideal) x0 x2) (val_main_v35 (F := Ideal) x0 x2)
          (val_main_v18 (F := Ideal) x1 x2) Ws Wd wq bq x5 b2 x7 bc1 x9 := by
  funext i
  obtain ⟨e, c, rfl⟩ : ∃ (e : Fin 640000) (c : Fin 3), i = ix2 e c := ⟨i 0, i 1, eq_ix2 i⟩
  have e53 : idx_main_v53 (ix2 e c) = ix2 e (0 : Fin 1) := funext fun a => by match a with | ⟨0, _⟩ => rfl | ⟨1, _⟩ => rfl
  rw [val_main_v54_apply, val_main_v53_apply, e53,
    coef_at x0 x1 x2 x3 x4 x5 x6 x7 x8 x9 Ws Wd wq bq hWs hWd hwq hbq b2 hb2 bc1 hbc1, Ideal.mulf_def]
  rfl

end Cert.ReferenceIdeal.RefVal

end
-- ==== Proof.RefNode.lean ====
/-
  The reference's node stage is the specification's node layer of the node features and the summed messages.

  The reference joins a node's features and its summed messages into 256 numbers and multiplies by the whole
  256 × 128 matrix; a sum over 256 terms is the sum over the first 128 plus the sum over the next 128, which is the
  specification's hrow·Wh + g·Wm once the two bands are named by their entries. The gate is written out on the host
  as z · (1 / (1 + e^(-z))).
-/
import proofs.«418114_j661424963982_2_alg».proof.Proof.Gen.ReferenceIdeal.Read
import proofs.«418114_j661424963982_2_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Mathlib.Algebra.BigOperators.Fin

noncomputable section

open scoped BigOperators

namespace Cert.ReferenceIdeal.RefVal

open Cert.ReferenceIdeal Cert.ReferenceIdeal.Gen Cert.ReferenceIdeal.Read Idealize.ShloMosaic Idealize.ShloMosaic.ValueIdx

/-! ## The facts the node stage rests on: a sum cut in two, the gate as the host writes it, two arrays side by side -/

/-- A sum over 256 terms is the sum over the first 128 plus the sum over the next 128. -/
private theorem sum_two_bands {M : Type} [AddCommMonoid M] (f : Fin 256 → M) :
    ∑ k : Fin 256, f k
      = (∑ k : Fin 128, f ⟨k.val, Nat.lt_trans k.isLt (by decide)⟩)
        + (∑ k : Fin 128, f ⟨128 + k.val, by have := k.isLt; omega⟩) :=
  Fin.sum_univ_add (a := 128) (b := 128) f

/-- z · (1 / (1 + e^(-z))), the constant one given by its f32 pattern, is the gate z · σ(z): the logistic function is
    that quotient by definition. -/
private theorem host_gate (z : EReal) :
    z * Ideal.div (Ideal.ofBits .f32 0x3F800000#32) (Ideal.ofBits .f32 0x3F800000#32 + Ideal.exp (-z))
      = Cert.Egnn.gate z := by
  rw [Ideal.ofBits_one_f32]; rfl

/-- Two 50000 × 128 arrays joined side by side, read in the first 128 columns: the first array. -/
private theorem join_first {α : Type} (a b : S50000x128.Idx → α)
    (h : Shape.Concatenates [S50000x128, S50000x128] S50000x256 1) (e : Fin 50000) (l : Fin 128) :
    concatenate S50000x256 1 [⟨S50000x128, a⟩, ⟨S50000x128, b⟩] h
        (ix2 e (⟨l.val, Nat.lt_trans l.isLt (by decide)⟩ : Fin 256)) = a (ix2 e l) :=
  concatenate_pair_apply_left (t := S50000x256) (s₁ := S50000x128) (s₂ := S50000x128) (1 : Fin 2) a b h _ rfl
    (ix2 e l) (by
      intro c
      match c with
      | ⟨0, _⟩ => rfl
      | ⟨1, _⟩ => rfl)

/-- The same, read in the last 128 columns: the second array, 128 columns to the left. -/
private theorem join_second {α : Type} (a b : S50000x128.Idx → α)
    (h : Shape.Concatenates [S50000x128, S50000x128] S50000x256 1) (e : Fin 50000) (l : Fin 128) :
    concatenate S50000x256 1 [⟨S50000x128, a⟩, ⟨S50000x128, b⟩] h
        (ix2 e (⟨128 + l.val, by have := l.isLt; omega⟩ : Fin 256)) = b (ix2 e l) :=
  concatenate_pair_apply_right (t := S50000x256) (s₁ := S50000x128) (s₂ := S50000x128) (1 : Fin 2) a b h _ rfl rfl
    (ix2 e l) (by
      intro c hc
      match c with
      | ⟨0, _⟩ => rfl
      | ⟨1, _⟩ => exact absurd rfl hc) (by
      show l.val + 128 = 128 + l.val; omega)

/-! ## The specification's node array at a row and a column -/

/-- The node layer at row e, column j, with the rows written out as entries of the two arrays. -/
private theorem nodeH_apply (h g : Cert.Egnn.Mat 50000 128) (Wh Wm : Cert.Egnn.Mat 128 128) (b1 : Cert.Egnn.Mat 1 128)
    (W2 : Cert.Egnn.Mat 128 128) (b2 : Cert.Egnn.Mat 1 128) (e : Fin 50000) (j : Fin 128) :
    Cert.Egnn.nodeH (R := 50000) h g Wh Wm b1 W2 b2 (ix2 e j)
      = h (ix2 e j) + ((∑ k : Fin 128,
          Cert.Egnn.gate (((∑ l : Fin 128, h (ix2 e l) * Wh (ix2 l k)) + (∑ l : Fin 128, g (ix2 e l) * Wm (ix2 l k)))
            + b1 (ix2 0 k)) * W2 (ix2 k j))
        + b2 (ix2 0 j)) := rfl

/-! ## The reference's stages, one at a time -/

/-- The joined array in its first 128 columns is the node features. -/
private theorem joined_first (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (e : Fin 50000) (l : Fin 128) :
    val_main_v62 (F := Ideal) x0 x1 x2 x3 x4 x5 x6 (ix2 e (⟨l.val, Nat.lt_trans l.isLt (by decide)⟩ : Fin 256))
      = x0 (ix2 e l) := by
  unfold val_main_v62
  exact join_first _ _ _ e l

/-- The joined array in its last 128 columns is the summed messages. -/
private theorem joined_second (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (e : Fin 50000) (l : Fin 128) :
    val_main_v62 (F := Ideal) x0 x1 x2 x3 x4 x5 x6 (ix2 e (⟨128 + l.val, by have := l.isLt; omega⟩ : Fin 256))
      = val_main_v61 (F := Ideal) x0 x1 x2 x3 x4 x5 x6 (ix2 e l) := by
  unfold val_main_v62
  exact join_second _ _ _ e l

/-- The first layer before its gate, at row e and column k: the features against the matrix's first 128 rows, the summed
    messages against its next 128 rows, and the bias. -/
private theorem pre_apply (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (x10 : FVec Ideal S256x128 .f32) (x11 : FVec Ideal S128 .f32) (e : Fin 50000) (k : Fin 128) :
    val_main_v66 (F := Ideal) x0 x1 x2 x3 x4 x5 x6 x10 x11 (ix2 e k)
      = ((∑ l : Fin 128, x0 (ix2 e l) * x10 (ix2 (⟨l.val, Nat.lt_trans l.isLt (by decide)⟩ : Fin 256) k))
          + (∑ l : Fin 128, val_main_v61 (F := Ideal) x0 x1 x2 x3 x4 x5 x6 (ix2 e l)
              * x10 (ix2 (⟨128 + l.val, by have := l.isLt; omega⟩ : Fin 256) k)))
        + x11 (ix1 k) := by
  have el : ∀ l : Fin 256, lidx_main_v63 (ix2 e k) l = ix2 e l := fun l =>
    funext fun a => by match a with | ⟨0, _⟩ => rfl | ⟨1, _⟩ => rfl
  have er : ∀ l : Fin 256, ridx_main_v63 (ix2 e k) l = ix2 l k := fun l =>
    funext fun a => by match a with | ⟨0, _⟩ => rfl | ⟨1, _⟩ => rfl
  have eb : idx_main_v64 (idx_main_v65 (ix2 e k)) = ix1 k :=
    funext fun a => by match a with | ⟨0, _⟩ => rfl
  rw [val_main_v66_apply, val_main_v63_apply, val_main_v65_apply, val_main_v64_apply, eb, Ideal.addf_def]
  simp only [el, er]
  rw [sum_two_bands]
  simp only [joined_first, joined_second]

/-- The called function at an index is the gate of its argument at that index. -/
private theorem gated_apply (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (x10 : FVec Ideal S256x128 .f32) (x11 : FVec Ideal S128 .f32) (i : S50000x128.Idx) :
    val_main_v67 (F := Ideal) x0 x1 x2 x3 x4 x5 x6 x10 x11 i
      = Cert.Egnn.gate (val_main_v66 (F := Ideal) x0 x1 x2 x3 x4 x5 x6 x10 x11 i) := by
  rw [val_main_v67_apply, val_main_call3_v5_apply, val_main_call3_v4_apply, val_main_call3_cst_0_apply,
    val_main_call3_v3_apply, val_main_call3_v2_apply, val_main_call3_cst_apply, val_main_call3_v1_apply,
    val_main_call3_v0_apply]
  generalize val_main_v66 (F := Ideal) x0 x1 x2 x3 x4 x5 x6 x10 x11 i = z
  exact host_gate z

/-- The reference's first result is the specification's node array of the node features and its own summed messages. -/
theorem ref_node (x0 : FVec Ideal S50000x128 .f32) (x1 : FVec Ideal S50000x3 .f32) (x2 : IVec S2x640000 32)
    (x3 : FVec Ideal S257x128 .f32) (x4 : FVec Ideal S128 .f32) (x5 : FVec Ideal S128x128 .f32) (x6 : FVec Ideal S128 .f32)
    (x10 : FVec Ideal S256x128 .f32) (x11 : FVec Ideal S128 .f32) (x12 : FVec Ideal S128x128 .f32) (x13 : FVec Ideal S128 .f32)
    (Wh Wm : Cert.Egnn.Mat 128 128) (b1 b2 : Cert.Egnn.Mat 1 128)
    (hWh : ∀ k j : Fin 128, Wh (ix2 k j) = x10 (ix2 (⟨k.val, Nat.lt_trans k.isLt (by decide)⟩ : Fin 256) j))
    (hWm : ∀ k j : Fin 128, Wm (ix2 k j) = x10 (ix2 (⟨128 + k.val, by have := k.isLt; omega⟩ : Fin 256) j))
    (hb1 : ∀ j : Fin 128, b1 (ix2 (0 : Fin 1) j) = x11 (ix1 j))
    (hb2 : ∀ j : Fin 128, b2 (ix2 (0 : Fin 1) j) = x13 (ix1 j)) :
    val_main_v72 (F := Ideal) x0 x1 x2 x3 x4 x5 x6 x10 x11 x12 x13
      = Cert.Egnn.nodeH (R := 50000) x0 (val_main_v61 (F := Ideal) x0 x1 x2 x3 x4 x5 x6) Wh Wm b1 x12 b2 := by
  funext i
  obtain ⟨e, j, rfl⟩ : ∃ (e : Fin 50000) (j : Fin 128), i = ix2 e j := ⟨i 0, i 1, eq_ix2 i⟩
  have el : ∀ k : Fin 128, lidx_main_v68 (ix2 e j) k = ix2 e k := fun k =>
    funext fun a => by match a with | ⟨0, _⟩ => rfl | ⟨1, _⟩ => rfl
  have er : ∀ k : Fin 128, ridx_main_v68 (ix2 e j) k = ix2 k j := fun k =>
    funext fun a => by match a with | ⟨0, _⟩ => rfl | ⟨1, _⟩ => rfl
  have eb : idx_main_v69 (idx_main_v70 (ix2 e j)) = ix1 j :=
    funext fun a => by match a with | ⟨0, _⟩ => rfl
  rw [nodeH_apply, val_main_v72_apply, val_main_v71_apply, val_main_v68_apply, val_main_v70_apply, val_main_v69_apply, eb,
    Ideal.addf_def, Ideal.addf_def]
  simp only [el, er, gated_apply, pre_apply, hWh, hWm, hb1, hb2]

end Cert.ReferenceIdeal.RefVal

end
-- ==== Proof.RefBridge.lean ====
/-
  The reference's two results are the kernel program's two results, as functions of the same argument arrays, when
  the edge list holds node numbers.

  Both sides are now the specification's node and edge layers; what differs is only how the endpoint rows are looked up
  (the reference reads the table at the moved index, the kernel program additionally fills rows whose moved index is
  outside the table) and that the kernel program cuts its weight matrices into bands before the launches. For node
  numbers nothing is moved and nothing is filled, so the lookups agree; the bands are the entries the reference's
  sums range over; summing into destination nodes is the same operation on both sides.
-/
import proofs.«418114_j661424963982_2_alg».proof.Proof.Gen.ReferenceIdeal.Read
import proofs.«418114_j661424963982_2_alg».proof.Proof.KernelValue
import proofs.«418114_j661424963982_2_alg».proof.Proof.TakePre
import proofs.«418114_j661424963982_2_alg».proof.Proof.Bands
import proofs.«418114_j661424963982_2_alg».proof.Proof.RefEdge
import proofs.«418114_j661424963982_2_alg».proof.Proof.RefNode

set_option maxRecDepth 16384

noncomputable section

namespace Cert.Proof.Bridge

open Idealize.ShloMosaic Idealize.ShloMosaic.ValueIdx
open Cert.KernelIdeal.Val Cert.ReferenceIdeal.Read Cert.ReferenceIdeal.RefVal

/-- The reference's lookup of the source features is the kernel program's. -/
theorem look_src (x0 : FVec Ideal Cert.KernelIdeal.S50000x128 .f32) (x2 : IVec Cert.KernelIdeal.S2x640000 32) (h : EdgesInRange x2) :
    val_main_v28 (F := Ideal) x0 x2 = take128 x0 (srcIdx x2) := by
  have e : val_main_v28 (F := Ideal) x0 x2
      = Host.gather Cert.KernelIdeal.gather_S50000x128_S640000x1_S640000x128_1_0_n_n_0_1_1128 x0 (colIdx (wrapIdx (srcIdx x2))) := rfl
  rw [e, wrapIdx_eq _ (srcIdx_inRange x2 h), take128_eq x0 _ (srcIdx_inRange x2 h)]

/-- The reference's lookup of the destination features is the kernel program's. -/
theorem look_dst (x0 : FVec Ideal Cert.KernelIdeal.S50000x128 .f32) (x2 : IVec Cert.KernelIdeal.S2x640000 32) (h : EdgesInRange x2) :
    val_main_v35 (F := Ideal) x0 x2 = take128 x0 (dstIdx x2) := by
  have e : val_main_v35 (F := Ideal) x0 x2
      = Host.gather Cert.KernelIdeal.gather_S50000x128_S640000x1_S640000x128_1_0_n_n_0_1_1128 x0 (colIdx (wrapIdx (dstIdx x2))) := rfl
  rw [e, wrapIdx_eq _ (dstIdx_inRange x2 h), take128_eq x0 _ (dstIdx_inRange x2 h)]

/-- The reference's relative positions are the kernel program's. -/
theorem look_rel (x1 : FVec Ideal Cert.KernelIdeal.S50000x3 .f32) (x2 : IVec Cert.KernelIdeal.S2x640000 32) (h : EdgesInRange x2) :
    val_main_v18 (F := Ideal) x1 x2 = relPos x1 x2 := by
  have e : val_main_v18 (F := Ideal) x1 x2
      = subf (Host.gather Cert.KernelIdeal.gather_S50000x3_S640000x1_S640000x3_1_0_n_n_0_1_13 x1 (colIdx (wrapIdx (srcIdx x2))))
          (Host.gather Cert.KernelIdeal.gather_S50000x3_S640000x1_S640000x3_1_0_n_n_0_1_13 x1 (colIdx (wrapIdx (dstIdx x2)))) := rfl
  rw [e, wrapIdx_eq _ (srcIdx_inRange x2 h), wrapIdx_eq _ (dstIdx_inRange x2 h)]
  unfold relPos
  rw [take3_eq x1 _ (srcIdx_inRange x2 h), take3_eq x1 _ (dstIdx_inRange x2 h)]

/-- The reference's messages are the kernel program's. -/
theorem ref_msgK (x0 : FVec Ideal Cert.KernelIdeal.S50000x128 .f32) (x1 : FVec Ideal Cert.KernelIdeal.S50000x3 .f32) (x2 : IVec Cert.KernelIdeal.S2x640000 32)
    (x3 : FVec Ideal Cert.KernelIdeal.S257x128 .f32) (x4 : FVec Ideal Cert.KernelIdeal.S128 .f32) (x5 : FVec Ideal Cert.KernelIdeal.S128x128 .f32) (x6 : FVec Ideal Cert.KernelIdeal.S128 .f32) (h : EdgesInRange x2) :
    val_main_v46 (F := Ideal) x0 x1 x2 x3 x4 x5 x6 = msgK x0 x1 x2 x3 x4 x5 x6 := by
  rw [ref_msg x0 x1 x2 x3 x4 x5 x6 (bandA x3) (bandB x3) (bandQ x3) (bias2d x4) (bias2d x6)
    (bandA_apply x3) (bandB_apply x3) (bandQ_apply x3) (bias2d_apply x4) (bias2d_apply x6),
    look_src x0 x2 h, look_dst x0 x2 h, look_rel x1 x2 h]
  rfl

/-- The reference's coordinate updates are the kernel program's. -/
theorem ref_coordK (x0 : FVec Ideal Cert.KernelIdeal.S50000x128 .f32) (x1 : FVec Ideal Cert.KernelIdeal.S50000x3 .f32) (x2 : IVec Cert.KernelIdeal.S2x640000 32)
    (x3 : FVec Ideal Cert.KernelIdeal.S257x128 .f32) (x4 : FVec Ideal Cert.KernelIdeal.S128 .f32) (x5 : FVec Ideal Cert.KernelIdeal.S128x128 .f32) (x6 : FVec Ideal Cert.KernelIdeal.S128 .f32)
    (x7 : FVec Ideal Cert.KernelIdeal.S128x128 .f32) (x8 : FVec Ideal Cert.KernelIdeal.S128 .f32) (x9 : FVec Ideal Cert.KernelIdeal.S128x1 .f32) (h : EdgesInRange x2) :
    val_main_v54 (F := Ideal) x0 x1 x2 x3 x4 x5 x6 x7 x8 x9 = coordK x0 x1 x2 x3 x4 x5 x6 x7 x8 x9 := by
  rw [ref_coord x0 x1 x2 x3 x4 x5 x6 x7 x8 x9 (bandA x3) (bandB x3) (bandQ x3) (bias2d x4) (bias2d x6)
    (bandA_apply x3) (bandB_apply x3) (bandQ_apply x3) (bias2d_apply x4) (bias2d_apply x6) (bias2d x8) (bias2d_apply x8),
    look_src x0 x2 h, look_dst x0 x2 h, look_rel x1 x2 h]
  rfl

/-- The reference's first result is the kernel program's. -/
theorem ref_hout (x0 : FVec Ideal Cert.KernelIdeal.S50000x128 .f32) (x1 : FVec Ideal Cert.KernelIdeal.S50000x3 .f32) (x2 : IVec Cert.KernelIdeal.S2x640000 32)
    (x3 : FVec Ideal Cert.KernelIdeal.S257x128 .f32) (x4 : FVec Ideal Cert.KernelIdeal.S128 .f32) (x5 : FVec Ideal Cert.KernelIdeal.S128x128 .f32) (x6 : FVec Ideal Cert.KernelIdeal.S128 .f32)
    (x10 : FVec Ideal Cert.KernelIdeal.S256x128 .f32) (x11 : FVec Ideal Cert.KernelIdeal.S128 .f32) (x12 : FVec Ideal Cert.KernelIdeal.S128x128 .f32) (x13 : FVec Ideal Cert.KernelIdeal.S128 .f32)
    (h : EdgesInRange x2) :
    val_main_v72 (F := Ideal) x0 x1 x2 x3 x4 x5 x6 x10 x11 x12 x13 = houtK x0 x1 x2 x3 x4 x5 x6 x10 x11 x12 x13 := by
  rw [ref_node x0 x1 x2 x3 x4 x5 x6 x10 x11 x12 x13 (nbandH x10) (nbandM x10) (bias2d x11) (bias2d x13)
    (nbandH_apply x10) (nbandM_apply x10) (bias2d_apply x11) (bias2d_apply x13)]
  have e : val_main_v61 (F := Ideal) x0 x1 x2 x3 x4 x5 x6 = scat128 (F := Ideal) (dstIdx x2) (val_main_v46 (F := Ideal) x0 x1 x2 x3 x4 x5 x6) := rfl
  rw [e, ref_msgK x0 x1 x2 x3 x4 x5 x6 h]
  rfl

/-- The reference's second result is the kernel program's. -/
theorem ref_xout (x0 : FVec Ideal Cert.KernelIdeal.S50000x128 .f32) (x1 : FVec Ideal Cert.KernelIdeal.S50000x3 .f32) (x2 : IVec Cert.KernelIdeal.S2x640000 32)
    (x3 : FVec Ideal Cert.KernelIdeal.S257x128 .f32) (x4 : FVec Ideal Cert.KernelIdeal.S128 .f32) (x5 : FVec Ideal Cert.KernelIdeal.S128x128 .f32) (x6 : FVec Ideal Cert.KernelIdeal.S128 .f32)
    (x7 : FVec Ideal Cert.KernelIdeal.S128x128 .f32) (x8 : FVec Ideal Cert.KernelIdeal.S128 .f32) (x9 : FVec Ideal Cert.KernelIdeal.S128x1 .f32) (h : EdgesInRange x2) :
    val_main_v58 (F := Ideal) x0 x1 x2 x3 x4 x5 x6 x7 x8 x9 = xoutK x0 x1 x2 x3 x4 x5 x6 x7 x8 x9 := by
  have e : val_main_v58 (F := Ideal) x0 x1 x2 x3 x4 x5 x6 x7 x8 x9
      = addf x1 (scat3 (F := Ideal) (dstIdx x2) (val_main_v54 (F := Ideal) x0 x1 x2 x3 x4 x5 x6 x7 x8 x9)) := rfl
  rw [e, ref_coordK x0 x1 x2 x3 x4 x5 x6 x7 x8 x9 h]
  rfl

end Cert.Proof.Bridge

end
-- ==== Proof.lean ====
/-
  One layer of an equivariant graph network on 50000 nodes and 640000 edges: per edge, a message from the two endpoint
  feature rows and the squared distance of the endpoints (two gated dense layers) and a coordinate update (the
  relative position times a scalar from two more layers); per node, the messages and updates of its incoming edges
  summed, new features from the old ones and the summed messages (two dense layers, a residual), new coordinates
  the old ones plus the summed updates.

  The kernel program looks the endpoint rows up on the host, runs the edge layers in a first launch over 160 blocks of
  4000 edges with its first weight matrix cut into three row bands, sums on the host, and runs the node layers in a
  second launch over 10 blocks of 5000 nodes with that weight matrix cut into two bands. The reference multiplies
  joined rows by the whole matrices. Over the extended reals both are the same finite sums of products, regrouped:
  only associativity and commutativity of addition is used. The one difference is the lookup outside the table, where
  the kernel program fills a row and the reference reads a confined index; the precondition (every entry of the edge
  list a node number) excludes it, and that is the only part of the precondition the proof uses.

  The three frames are the generated ones (the reference's is its generated run with the results dropped);
  the kernel program's values come from the same launch with the two result arrays kept (KernelRun), read back through
  the host stretches (KHost0, KHost1) and the two launches (PayEdge, PayNode, Blocks0, Blocks1) to the specification
  (Spec); the reference's from its generated run read stage by stage (RefEdge, RefNode); RefBridge joins them.
-/
import proofs.«418114_j661424963982_2_alg».proof.Defs
import proofs.«418114_j661424963982_2_alg».proof.Proof.Gen.Kernel
import proofs.«418114_j661424963982_2_alg».proof.Proof.Gen.Kernel.Skeleton
import proofs.«418114_j661424963982_2_alg».proof.Proof.Gen.Kernel.Launch
import proofs.«418114_j661424963982_2_alg».proof.Proof.Gen.Kernel.Points
import proofs.«418114_j661424963982_2_alg».proof.Proof.Gen.Kernel.Frame
import proofs.«418114_j661424963982_2_alg».proof.Proof.Gen.KernelIdeal
import proofs.«418114_j661424963982_2_alg».proof.Proof.Gen.KernelIdeal.Skeleton
import proofs.«418114_j661424963982_2_alg».proof.Proof.Gen.KernelIdeal.Launch
import proofs.«418114_j661424963982_2_alg».proof.Proof.Gen.KernelIdeal.Points
import proofs.«418114_j661424963982_2_alg».proof.Proof.Gen.KernelIdeal.Frame
import proofs.«418114_j661424963982_2_alg».proof.Proof.Gen.ReferenceIdeal
import proofs.«418114_j661424963982_2_alg».proof.Proof.Gen.ReferenceIdeal.Run
import proofs.«418114_j661424963982_2_alg».proof.Proof.Gen.ReferenceIdeal.Read
import proofs.«418114_j661424963982_2_alg».proof.Proof.Gen.Pre_finite_inputs
import proofs.«418114_j661424963982_2_alg».proof.Proof.KernelRun
import proofs.«418114_j661424963982_2_alg».proof.Proof.KernelValue
import proofs.«418114_j661424963982_2_alg».proof.Proof.TakePre
import proofs.«418114_j661424963982_2_alg».proof.Proof.RefBridge
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel program was idealized. -/
theorem preserves : Cert.preserves_Kernel_KernelIdeal := trivial

/-- From memories agreeing on the arguments, with the edge list holding node numbers, both idealized programs run and
    end with the same two result arrays: the specification's node array and the coordinates plus the summed updates. -/
theorem algebraic : Cert.algebraic_KernelIdeal_ReferenceIdeal := by
  intro m ρ m' ρ' hpre hagree
  have hin : ∀ c : Dev Cert.KernelIdeal.nD, Cert.KernelIdeal.Val.EdgesInRange (m ((c.tc : Thread Cert.KernelIdeal.nD Cert.KernelIdeal.τ).loc Cert.KernelIdeal.main_arg2)) := fun c =>
    Cert.KernelIdeal.Val.edgesInRange_of_pre (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
  refine ⟨fun c => Cert.KernelIdeal.Val.houtK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.KernelIdeal.Val.xoutK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Val.W10_hout m ρ c), (h c).2.1.trans (Cert.KernelIdeal.Val.W10_xout m ρ c), (h c).2.2⟩)
      (Cert.KernelIdeal.ValRun.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v72_eq, (hagree c).1, (hagree c).2.1, (hagree c).2.2.1, (hagree c).2.2.2.1, (hagree c).2.2.2.2.1, (hagree c).2.2.2.2.2.1, (hagree c).2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
      exact Cert.Proof.Bridge.ref_hout _ _ _ _ _ _ _ _ _ _ _ (hin c)
    · rw [Cert.ReferenceIdeal.Read.val_main_v58_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
      exact Cert.Proof.Bridge.ref_xout _ _ _ _ _ _ _ _ _ _ (hin c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
